-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x9x128x128 : Shape := ⟨4, ![64, 9, 128, 128]⟩
abbrev S64x1000 : Shape := ⟨2, ![64, 1000]⟩
abbrev S64x9x4x128x128 : Shape := ⟨5, ![64, 9, 4, 128, 128]⟩
abbrev S64 : Shape := ⟨1, ![64]⟩
abbrev S64x9x5x128x128 : Shape := ⟨5, ![64, 9, 5, 128, 128]⟩
abbrev S_ : Shape := ⟨0, ![]⟩

class Facts : Prop where
  bcast_S_S64x9x128x128 : S_.BroadcastsInDim S64x9x128x128 (![] : Fin 0 → Fin S64x9x128x128.rank)
  reducesTo_S64x9x128x128_S_d0_1_2_3 : S64x9x128x128.ReducesTo [0, 1, 2, 3] S_
  h_S_ : 0 < S_.numel
  bcast_S_S64x1000 : S_.BroadcastsInDim S64x1000 (![] : Fin 0 → Fin S64x1000.rank)
  reducesTo_S64x1000_S_d0_1 : S64x1000.ReducesTo [0, 1] S_
  bcast_S_S64x9x4x128x128 : S_.BroadcastsInDim S64x9x4x128x128 (![] : Fin 0 → Fin S64x9x4x128x128.rank)
  reducesTo_S64x9x4x128x128_S_d0_1_2_3_4 : S64x9x4x128x128.ReducesTo [0, 1, 2, 3, 4] S_
  bcast_S_S64x9x5x128x128 : S_.BroadcastsInDim S64x9x5x128x128 (![] : Fin 0 → Fin S64x9x5x128x128.rank)
  reducesTo_S64x9x5x128x128_S_d0_1_2_3_4 : S64x9x5x128x128.ReducesTo [0, 1, 2, 3, 4] S_

variable [Facts]

def fn_part1 {F : FTy → Type} [FloatOps F] (main_v13 : IVec S_ 1) (main_v16 : IVec S64x9x5x128x128 1) : IVec S_ 1 :=
  let main_c_5 : IVec S_ 1 := constantI S_ 1 1#1
  let main_v17 : IVec S_ 1 := (fun x v => Host.reduce IntOp.andi x v reducesTo_S64x9x5x128x128_S_d0_1_2_3_4 h_S_) main_v16 main_c_5
  let main_v18 : IVec S_ 1 := andi main_v13 main_v17
  main_v18

def fn {F : FTy → Type} [FloatOps F] (main_arg0 : FVec F S64x9x128x128 .f32) (main_arg1 : FVec F S64x1000 .f32) (main_arg2 : FVec F S64x9x4x128x128 .f32) (main_arg3 : IVec S64 32) (main_arg4 : FVec F S64x9x5x128x128 .f32) : IVec S_ 1 :=
  let main_v0 : FVec F S64x9x128x128 .f32 := Host.absf main_arg0
  let main_cst : FVec F S_ .f32 := constant S_ .f32 0x7F800000#32
  let main_v1 : FVec F S64x9x128x128 .f32 := broadcastInDim S64x9x128x128 ![] bcast_S_S64x9x128x128 main_cst
  let main_v2 : IVec S64x9x128x128 1 := cmpf .olt main_v0 main_v1
  let main_c : IVec S_ 1 := constantI S_ 1 1#1
  let main_v3 : IVec S_ 1 := (fun x v => Host.reduce IntOp.andi x v reducesTo_S64x9x128x128_S_d0_1_2_3 h_S_) main_v2 main_c
  let main_v4 : FVec F S64x1000 .f32 := Host.absf main_arg1
  let main_cst_0 : FVec F S_ .f32 := constant S_ .f32 0x7F800000#32
  let main_v5 : FVec F S64x1000 .f32 := broadcastInDim S64x1000 ![] bcast_S_S64x1000 main_cst_0
  let main_v6 : IVec S64x1000 1 := cmpf .olt main_v4 main_v5
  let main_c_1 : IVec S_ 1 := constantI S_ 1 1#1
  let main_v7 : IVec S_ 1 := (fun x v => Host.reduce IntOp.andi x v reducesTo_S64x1000_S_d0_1 h_S_) main_v6 main_c_1
  let main_v8 : IVec S_ 1 := andi main_v3 main_v7
  let main_v9 : FVec F S64x9x4x128x128 .f32 := Host.absf main_arg2
  let main_cst_2 : FVec F S_ .f32 := constant S_ .f32 0x7F800000#32
  let main_v10 : FVec F S64x9x4x128x128 .f32 := broadcastInDim S64x9x4x128x128 ![] bcast_S_S64x9x4x128x128 main_cst_2
  let main_v11 : IVec S64x9x4x128x128 1 := cmpf .olt main_v9 main_v10
  let main_c_3 : IVec S_ 1 := constantI S_ 1 1#1
  let main_v12 : IVec S_ 1 := (fun x v => Host.reduce IntOp.andi x v reducesTo_S64x9x4x128x128_S_d0_1_2_3_4 h_S_) main_v11 main_c_3
  let main_v13 : IVec S_ 1 := andi main_v8 main_v12
  let main_v14 : FVec F S64x9x5x128x128 .f32 := Host.absf main_arg4
  let main_cst_4 : FVec F S_ .f32 := constant S_ .f32 0x7F800000#32
  let main_v15 : FVec F S64x9x5x128x128 .f32 := broadcastInDim S64x9x5x128x128 ![] bcast_S_S64x9x5x128x128 main_cst_4
  let main_v16 : IVec S64x9x5x128x128 1 := cmpf .olt main_v14 main_v15
  fn_part1 (F := F) main_v13 main_v16
-- ==== Kernel.lean ====
abbrev S64x9x128x128 : Shape := ⟨4, ![64, 9, 128, 128]⟩
abbrev S64x1000 : Shape := ⟨2, ![64, 1000]⟩
abbrev S64x9x4x128x128 : Shape := ⟨5, ![64, 9, 4, 128, 128]⟩
abbrev S64 : Shape := ⟨1, ![64]⟩
abbrev S64x9x5x128x128 : Shape := ⟨5, ![64, 9, 5, 128, 128]⟩
abbrev S2x8x128 : Shape := ⟨3, ![2, 8, 128]⟩
abbrev S1x9x128x128 : Shape := ⟨4, ![1, 9, 128, 128]⟩
abbrev S1x9x5x128x128 : Shape := ⟨5, ![1, 9, 5, 128, 128]⟩
abbrev S1x9x4x128x128 : Shape := ⟨5, ![1, 9, 4, 128, 128]⟩
abbrev S1x8x128 : Shape := ⟨3, ![1, 8, 128]⟩
abbrev S1x9x1x128x128 : Shape := ⟨5, ![1, 9, 1, 128, 128]⟩
abbrev S1x9x128 : Shape := ⟨3, ![1, 9, 128]⟩
abbrev S1x9 : Shape := ⟨2, ![1, 9]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩
abbrev S64x1 : Shape := ⟨2, ![64, 1]⟩
abbrev S64x2 : Shape := ⟨2, ![64, 2]⟩

abbrev nBuf : Space → Nat
  | .hbm => 72
  | .vmem => 12
  | .smem => 0
  | _ => 0

abbrev bufTy : (tb : Table) → Fin (tcTables nBuf tb) → BufTy
  | .hbm, ⟨0, _⟩ => ⟨S64x9x128x128, .f32⟩
  | .hbm, ⟨1, _⟩ => ⟨S64x1000, .f32⟩
  | .hbm, ⟨2, _⟩ => ⟨S64x9x4x128x128, .f32⟩
  | .hbm, ⟨3, _⟩ => ⟨S64, .i32⟩
  | .hbm, ⟨4, _⟩ => ⟨S64x9x5x128x128, .f32⟩
  | .hbm, ⟨5, _⟩ => ⟨S2x8x128, .f32⟩
  | .hbm, ⟨6, _⟩ => ⟨S2x8x128, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S2x1x1, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S2x1x1, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64x1, .f32⟩
  | .hbm, ⟨26, _⟩ => ⟨S64x1000, .f32⟩
  | .hbm, ⟨27, _⟩ => ⟨S64x1000, .f32⟩
  | .hbm, ⟨28, _⟩ => ⟨S64x1000, .f32⟩
  | .hbm, ⟨29, _⟩ => ⟨S_, .f32⟩
  | .hbm, ⟨30, _⟩ => ⟨S64, .f32⟩
  | .hbm, ⟨31, _⟩ => ⟨S64x1, .f32⟩
  | .hbm, ⟨32, _⟩ => ⟨S64x1, .f32⟩
  | .hbm, ⟨33, _⟩ => ⟨S64x1000, .f32⟩
  | .hbm, ⟨34, _⟩ => ⟨S64x1000, .f32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S64x1, .i32⟩
  | .hbm, ⟨51, _⟩ => ⟨S64x1, .i32⟩
  | .hbm, ⟨52, _⟩ => ⟨S64x2, .i32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S1x9x128x128, .f32⟩
  | .local _ .vmem, ⟨1, _⟩ => ⟨S1x9x128x128, .f32⟩
  | .local _ .vmem, ⟨2, _⟩ => ⟨S1x9x5x128x128, .f32⟩
  | .local _ .vmem, ⟨3, _⟩ => ⟨S1x9x5x128x128, .f32⟩
  | .local _ .vmem, ⟨4, _⟩ => ⟨S1x9x4x128x128, .f32⟩
  | .local _ .vmem, ⟨5, _⟩ => ⟨S1x9x4x128x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S64x9x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_c_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_cst_7 : Ref sig .tc := ⟨.hbm, 59, rfl⟩
abbrev main_v29 : Ref sig .tc := ⟨.hbm, 60, rfl⟩
abbrev main_cst_8 : Ref sig .tc := ⟨.hbm, 61, rfl⟩
abbrev main_v30 : Ref sig .tc := ⟨.hbm, 62, rfl⟩
abbrev main_cst_9 : Ref sig .tc := ⟨.hbm, 63, rfl⟩
abbrev main_v31 : Ref sig .tc := ⟨.hbm, 64, rfl⟩
abbrev main_v32 : Ref sig .tc := ⟨.hbm, 65, rfl⟩
abbrev main_cst_10 : Ref sig .tc := ⟨.hbm, 66, rfl⟩
abbrev main_v33 : Ref sig .tc := ⟨.hbm, 67, rfl⟩
abbrev main_v34 : Ref sig .tc := ⟨.hbm, 68, rfl⟩
abbrev main_cst_11 : Ref sig .tc := ⟨.hbm, 69, rfl⟩
abbrev main_v35 : Ref sig .tc := ⟨.hbm, 70, rfl⟩
abbrev main_v36 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x9x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x5x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x9x128x128_S1x9x128x128_0_0_0_0 : ∀ a, (![0, 0, 0, 0] : Fin 4 → Nat) a + S1x9x128x128.size a ≤ S1x9x128x128.size a
  h_S1x9x128x128 : 0 < S1x9x128x128.numel
  inb_S1x9x5x128x128_S1x9x5x128x128_0_0_0_0_0 : ∀ a, (![0, 0, 0, 0, 0] : Fin 5 → Nat) a + S1x9x5x128x128.size a ≤ S1x9x5x128x128.size a
  h_S1x9x5x128x128 : 0 < S1x9x5x128x128.numel
  inb_S1x9x4x128x128_S1x9x4x128x128_0_0_0_0_0 : ∀ a, (![0, 0, 0, 0, 0] : Fin 5 → Nat) a + S1x9x4x128x128.size a ≤ S1x9x4x128x128.size a
  h_S1x9x4x128x128 : 0 < S1x9x4x128x128.numel
  slices_S1x9x5x128x128_o0_0_0_0_0_S1x9x1x128x128 : S1x9x5x128x128.Slices ![0, 0, 0, 0, 0] S1x9x1x128x128
  shapeCasts_S1x9x1x128x128_S1x9x128x128 : S1x9x1x128x128.ShapeCasts S1x9x128x128
  reduces_S1x9x128x128_S1x9x128 : S1x9x128x128.Reduces [3] S1x9x128
  reduces_S1x9x128_S1x9 : S1x9x128.Reduces [2] S1x9
  reduces_S1x9_S1 : S1x9.Reduces [1] S1
  shapeCasts_S1_S1x1 : S1.ShapeCasts S1x1
  reduces_S1x1_S1 : S1x1.Reduces [1] S1
  inpos_S1x1_p0_0 : ∀ a, (![0, 0] : Fin 2 → Nat) a < S1x1.size a
  slices_S1x9x5x128x128_o0_0_1_0_0_S1x9x4x128x128 : S1x9x5x128x128.Slices ![0, 0, 1, 0, 0] S1x9x4x128x128
  reduces_S1x9x4x128x128_S1x9x128x128 : S1x9x4x128x128.Reduces [2] S1x9x128x128
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  reducesTo_S64x1000_S64_d1 : S64x1000.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x1000_0_1 : S64x1.BroadcastsInDim S64x1000 (![0, 1] : Fin 2 → Fin S64x1000.rank)
  concatenates_S64x1_S64x1_S64x2_d1 : Shape.Concatenates [S64x1, S64x1] S64x2 1
  reducesTo_S64_S_d0 : S64.ReducesTo [0] S_
  gather_S64x1000_S64x2_S64_n_01_n_n_01_1_11_wf : GatherDims.WF S64x1000 S64x2 S64 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x128x128.size a ≤ S64x9x128x128.size a
  hwx0_0 : ∀ i : grid0.Coords, EltTy.bits .f32 = 32 ∨ (Rect.block (s := S64x9x128x128) S1x9x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x5x128x128.size a ≤ S64x9x5x128x128.size a
  hwx0_1 : ∀ i : grid0.Coords, EltTy.bits .f32 = 32 ∨ (Rect.block (s := S64x9x5x128x128) S1x9x5x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x4x128x128.size a ≤ S64x9x4x128x128.size a
  hwx0_2 : ∀ i : grid0.Coords, EltTy.bits .f32 = 32 ∨ (Rect.block (s := S64x9x4x128x128) S1x9x4x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

def gather_S64x1000_S64x2_S64_n_01_n_n_01_1_11 : GatherDims S64x1000 S64x2 S64 where
  offsetDims := []
  collapsedSliceDims := [0, 1]
  operandBatchingDims := []
  startIndicesBatchingDims := []
  startIndexMap := [0, 1]
  indexVectorDim := 1
  sliceSizes := ![1, 1]
  wf := gather_S64x1000_S64x2_S64_n_01_n_n_01_1_11_wf

abbrev win0_0 : Pipeline.Window sig grid0 :=
  Pipeline.Window.ofSpec (Memref.whole main_arg0) S1x9x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x9x5x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x9x4x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x9x128x128 : Shape := ⟨4, ![64, 9, 128, 128]⟩
abbrev S64x1000 : Shape := ⟨2, ![64, 1000]⟩
abbrev S64x9x4x128x128 : Shape := ⟨5, ![64, 9, 4, 128, 128]⟩
abbrev S64 : Shape := ⟨1, ![64]⟩
abbrev S64x9x5x128x128 : Shape := ⟨5, ![64, 9, 5, 128, 128]⟩
abbrev S64x9x1x128x128 : Shape := ⟨5, ![64, 9, 1, 128, 128]⟩
abbrev S_ : Shape := ⟨0, ![]⟩
abbrev S64x1 : Shape := ⟨2, ![64, 1]⟩
abbrev S64x2 : Shape := ⟨2, ![64, 2]⟩

abbrev nBuf : Space → Nat
  | .hbm => 89
  | .vmem => 0
  | .smem => 0
  | _ => 0

abbrev bufTy : (tb : Table) → Fin (tcTables nBuf tb) → BufTy
  | .hbm, ⟨0, _⟩ => ⟨S64x9x128x128, .f32⟩
  | .hbm, ⟨1, _⟩ => ⟨S64x1000, .f32⟩
  | .hbm, ⟨2, _⟩ => ⟨S64x9x4x128x128, .f32⟩
  | .hbm, ⟨3, _⟩ => ⟨S64, .i32⟩
  | .hbm, ⟨4, _⟩ => ⟨S64x9x5x128x128, .f32⟩
  | .hbm, ⟨5, _⟩ => ⟨S64x9x1x128x128, .f32⟩
  | .hbm, ⟨6, _⟩ => ⟨S64x9x128x128, .f32⟩
  | .hbm, ⟨7, _⟩ => ⟨S64x9x128x128, .f32⟩
  | .hbm, ⟨8, _⟩ => ⟨S_, .f32⟩
  | .hbm, ⟨9, _⟩ => ⟨S_, .f32⟩
  | .hbm, ⟨10, _⟩ => ⟨S64x9x128x128, .f32⟩
  | .hbm, ⟨11, _⟩ => ⟨S64x9x128x128, .f32⟩
  | .hbm, ⟨12, _⟩ => ⟨S64x9x128x128, .f32⟩
  | .hbm, ⟨13, _⟩ => ⟨S64x9x128x128, .f32⟩
  | .hbm, ⟨14, _⟩ => ⟨S_, .f32⟩
  | .hbm, ⟨15, _⟩ => ⟨S_, .f32⟩
  | .hbm, ⟨16, _⟩ => ⟨S64x9x128x128, .f32⟩
  | .hbm, ⟨17, _⟩ => ⟨S64x9x128x128, .f32⟩
  | .hbm, ⟨18, _⟩ => ⟨S_, .f32⟩
  | .hbm, ⟨19, _⟩ => ⟨S64x9x128x128, .f32⟩
  | .hbm, ⟨20, _⟩ => ⟨S64x9x128x128, .f32⟩
  | .hbm, ⟨21, _⟩ => ⟨S64x9x128x128, .f32⟩
  | .hbm, ⟨22, _⟩ => ⟨S64x9x128x128, .f32⟩
  | .hbm, ⟨23, _⟩ => ⟨S_, .f32⟩
  | .hbm, ⟨24, _⟩ => ⟨S_, .f32⟩
  | .hbm, ⟨25, _⟩ => ⟨S64x9x128x128, .f32⟩
  | .hbm, ⟨26, _⟩ => ⟨S64x9x128x128, .f32⟩
  | .hbm, ⟨27, _⟩ => ⟨S_, .f32⟩
  | .hbm, ⟨28, _⟩ => ⟨S_, .f32⟩
  | .hbm, ⟨29, _⟩ => ⟨S64x9x4x128x128, .f32⟩
  | .hbm, ⟨30, _⟩ => ⟨S64x9x4x128x128, .f32⟩
  | .hbm, ⟨31, _⟩ => ⟨S64x9x4x128x128, .f32⟩
  | .hbm, ⟨32, _⟩ => ⟨S_, .f32⟩
  | .hbm, ⟨33, _⟩ => ⟨S64x9x128x128, .f32⟩
  | .hbm, ⟨34, _⟩ => ⟨S64x9x128x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64x1, .f32⟩
  | .hbm, ⟨43, _⟩ => ⟨S64x1000, .f32⟩
  | .hbm, ⟨44, _⟩ => ⟨S64x1000, .f32⟩
  | .hbm, ⟨45, _⟩ => ⟨S64x1000, .f32⟩
  | .hbm, ⟨46, _⟩ => ⟨S_, .f32⟩
  | .hbm, ⟨47, _⟩ => ⟨S64, .f32⟩
  | .hbm, ⟨48, _⟩ => ⟨S64x1, .f32⟩
  | .hbm, ⟨49, _⟩ => ⟨S64x1, .f32⟩
  | .hbm, ⟨50, _⟩ => ⟨S64x1000, .f32⟩
  | .hbm, ⟨51, _⟩ => ⟨S64x1000, .f32⟩
  | .hbm, ⟨52, _⟩ => ⟨S64, .i32⟩
  | .hbm, ⟨53, _⟩ => ⟨S_, .i32⟩
  | .hbm, ⟨54, _⟩ => ⟨S64, .i32⟩
  | .hbm, ⟨55, _⟩ => ⟨S64, .i1⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S64, .i32⟩
  | .hbm, ⟨60, _⟩ => ⟨S_, .i32⟩
  | .hbm, ⟨61, _⟩ => ⟨S64, .i32⟩
  | .hbm, ⟨62, _⟩ => ⟨S64, .i1⟩
  | .hbm, ⟨63, _⟩ => ⟨S_, .i32⟩
  | .hbm, ⟨64, _⟩ => ⟨S64, .i32⟩
  | .hbm, ⟨65, _⟩ => ⟨S64, .i32⟩
  | .hbm, ⟨66, _⟩ => ⟨S64, .i32⟩
  | .hbm, ⟨67, _⟩ => ⟨S64x1, .i32⟩
  | .hbm, ⟨68, _⟩ => ⟨S64x1, .i32⟩
  | .hbm, ⟨69, _⟩ => ⟨S64x2, .i32⟩
  | .hbm, ⟨70, _⟩ => ⟨S64, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S64x9x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_call2_cst : Ref sig .tc := ⟨.hbm, 37, rfl⟩
abbrev main_call2_v0 : Ref sig .tc := ⟨.hbm, 38, rfl⟩
abbrev main_call2_cst_0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_cst_1 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_7 : Ref sig .tc := ⟨.hbm, 60, rfl⟩
abbrev main_v28 : Ref sig .tc := ⟨.hbm, 61, rfl⟩
abbrev main_v29 : Ref sig .tc := ⟨.hbm, 62, rfl⟩
abbrev main_c_8 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_9 : Ref sig .tc := ⟨.hbm, 71, rfl⟩
abbrev main_v37 : Ref sig .tc := ⟨.hbm, 72, rfl⟩
abbrev main_cst_10 : Ref sig .tc := ⟨.hbm, 73, rfl⟩
abbrev main_v38 : Ref sig .tc := ⟨.hbm, 74, rfl⟩
abbrev main_v39 : Ref sig .tc := ⟨.hbm, 75, rfl⟩
abbrev main_cst_11 : Ref sig .tc := ⟨.hbm, 76, rfl⟩
abbrev main_v40 : Ref sig .tc := ⟨.hbm, 77, rfl⟩
abbrev main_cst_12 : Ref sig .tc := ⟨.hbm, 78, rfl⟩
abbrev main_v41 : Ref sig .tc := ⟨.hbm, 79, rfl⟩
abbrev main_cst_13 : Ref sig .tc := ⟨.hbm, 80, rfl⟩
abbrev main_v42 : Ref sig .tc := ⟨.hbm, 81, rfl⟩
abbrev main_v43 : Ref sig .tc := ⟨.hbm, 82, rfl⟩
abbrev main_cst_14 : Ref sig .tc := ⟨.hbm, 83, rfl⟩
abbrev main_v44 : Ref sig .tc := ⟨.hbm, 84, rfl⟩
abbrev main_v45 : Ref sig .tc := ⟨.hbm, 85, rfl⟩
abbrev main_cst_15 : Ref sig .tc := ⟨.hbm, 86, rfl⟩
abbrev main_v46 : Ref sig .tc := ⟨.hbm, 87, rfl⟩
abbrev main_v47 : Ref sig .tc := ⟨.hbm, 88, rfl⟩

abbrev nD : Nat := 1
abbrev τ : Topo := Topo.v7x

variable {F : FTy → Type} [FloatOps F]

class Facts₀ : Prop where
  slices_S64x9x5x128x128_S64x9x1x128x128_0_0_0_0_0 : S64x9x5x128x128.Slices ![0, 0, 0, 0, 0] S64x9x1x128x128
  shapeCasts_S64x9x1x128x128_S64x9x128x128 : S64x9x1x128x128.ShapeCasts S64x9x128x128
  bcast_S_S64x9x128x128 : S_.BroadcastsInDim S64x9x128x128 (![] : Fin 0 → Fin S64x9x128x128.rank)
  reducesTo_S64x9x128x128_S_d0_1_2_3 : S64x9x128x128.ReducesTo [0, 1, 2, 3] S_
  h_S_ : 0 < S_.numel
  slices_S64x9x5x128x128_S64x9x4x128x128_0_0_1_0_0 : S64x9x5x128x128.Slices ![0, 0, 1, 0, 0] S64x9x4x128x128
  reducesTo_S64x9x4x128x128_S64x9x128x128_d2 : S64x9x4x128x128.ReducesTo [2] S64x9x128x128
  reducesTo_S64x1000_S64_d1 : S64x1000.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x1000_0_1 : S64x1.BroadcastsInDim S64x1000 (![0, 1] : Fin 2 → Fin S64x1000.rank)
  concatenates_S64x1_S64x1_S64x2_d1 : Shape.Concatenates [S64x1, S64x1] S64x2 1
  reducesTo_S64_S_d0 : S64.ReducesTo [0] S_
  gather_S64x1000_S64x2_S64_n_01_n_n_01_1_11_wf : GatherDims.WF S64x1000 S64x2 S64 [] [0, 1] [] [0, 1] [] 1 ![1, 1]

variable [Facts₀]

def gather_S64x1000_S64x2_S64_n_01_n_n_01_1_11 : GatherDims S64x1000 S64x2 S64 where
  offsetDims := []
  collapsedSliceDims := [0, 1]
  operandBatchingDims := []
  startIndicesBatchingDims := []
  startIndexMap := [0, 1]
  indexVectorDim := 1
  sliceSizes := ![1, 1]
  wf := gather_S64x1000_S64x2_S64_n_01_n_n_01_1_11_wf

class Facts : Prop extends Facts₀ where

variable [Facts]
-- ==== Proof.KernelPieces.lean ====
/-
  What the kernel body leaves in its three accumulator blocks, case by case.

  Each of the three output blocks (1 x 8 x 128) is updated once per grid point by ONE store of the whole block:
  the block as it was, plus a splat of that point's partial sum.  At the first point of a core's row range the
  body first stores zeros and reads them back, so there the "block as it was" is the zero block; at every other
  point it is what the point before left.  The partial sums themselves stay the body's own named terms here
  (their arithmetic is read in a later module): the no-object term `k0_pay5`, the object term inside `k0_pay8`,
  the coordinate term inside `k0_pay9`.  Every load reads a whole buffer at zero offsets, so it reads the contents.
-/
import proofs.«161217_j83408264888736_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-! ## Inside a core's row range: the block the point before left, plus this point's partial sum -/

theorem out_B_3 (c : Dev nD) (i : grid0.Coords) (a2 : Memref sig .tc .vmem S1x9x128x128 .f32) (h2 : a2.IsWhole) (a3 : Memref sig .tc .vmem S1x9x5x128x128 .f32) (h3 : a3.IsWhole) (a4 : Memref sig .tc .vmem S1x9x4x128x128 .f32) (h4 : a4.IsWhole) (a5 : Memref sig .tc .vmem S1x8x128 .f32) (h5 : a5.IsWhole) (a6 : Memref sig .tc .vmem S1x8x128 .f32) (h6 : a6.IsWhole) (a7 : Memref sig .tc .vmem S1x8x128 .f32) (h7 : a7.IsWhole) (hc : ¬cond0_0 i)
    (x0 : Vec F S1x9x128x128 .f32) (x1 : Vec F S1x9x5x128x128 .f32) (x2 : Vec F S1x9x4x128x128 .f32) (xo3 xo4 xo5 : Vec F S1x8x128 .f32) :
    out0_B_3 c i a2 h2 a3 h3 a4 h4 a5 h5 a6 h6 a7 h7 hc x0 x1 x2 xo3 xo4 xo5 = k0_pay7 (k0_pay5 x0 x1) xo3 := by
  unfold out0_B_3
  rw [View.read_writes_eq_canon _ _ _ (cover0_B_3 c i a2 h2 a3 h3 a4 h4 a5 h5 a6 h6 a7 h7 hc x0 x1 x2 xo3 xo4 xo5)]
  unfold kernelRun0_B
  dsimp only
  sl_unfold_words
  rw [View.canon_unit_zero hz3]
  simp only [View.readAt_eq_ld, h2.read_unread, h3.read_unread, h4.read_unread, h5.read_unread,
    View.ld_unit_zero (S := S1x9x128x128) hz4, View.ld_unit_zero (S := S1x9x5x128x128) hz5,
    View.ld_unit_zero (S := S1x9x4x128x128) hz5, View.ld_unit_zero (S := S1x8x128) hz3]

theorem out_B_4 (c : Dev nD) (i : grid0.Coords) (a2 : Memref sig .tc .vmem S1x9x128x128 .f32) (h2 : a2.IsWhole) (a3 : Memref sig .tc .vmem S1x9x5x128x128 .f32) (h3 : a3.IsWhole) (a4 : Memref sig .tc .vmem S1x9x4x128x128 .f32) (h4 : a4.IsWhole) (a5 : Memref sig .tc .vmem S1x8x128 .f32) (h5 : a5.IsWhole) (a6 : Memref sig .tc .vmem S1x8x128 .f32) (h6 : a6.IsWhole) (a7 : Memref sig .tc .vmem S1x8x128 .f32) (h7 : a7.IsWhole) (hc : ¬cond0_0 i)
    (x0 : Vec F S1x9x128x128 .f32) (x1 : Vec F S1x9x5x128x128 .f32) (x2 : Vec F S1x9x4x128x128 .f32) (xo3 xo4 xo5 : Vec F S1x8x128 .f32) :
    out0_B_4 c i a2 h2 a3 h3 a4 h4 a5 h5 a6 h6 a7 h7 hc x0 x1 x2 xo3 xo4 xo5 = k0_pay8 (k0_pay6 x0 x1) xo4 := by
  unfold out0_B_4
  rw [View.read_writes_eq_canon _ _ _ (cover0_B_4 c i a2 h2 a3 h3 a4 h4 a5 h5 a6 h6 a7 h7 hc x0 x1 x2 xo3 xo4 xo5)]
  unfold kernelRun0_B
  dsimp only
  sl_unfold_words
  rw [View.canon_unit_zero hz3]
  simp only [View.readAt_eq_ld, h2.read_unread, h3.read_unread, h4.read_unread, h6.read_unread,
    View.ld_unit_zero (S := S1x9x128x128) hz4, View.ld_unit_zero (S := S1x9x5x128x128) hz5,
    View.ld_unit_zero (S := S1x9x4x128x128) hz5, View.ld_unit_zero (S := S1x8x128) hz3]

theorem out_B_5 (c : Dev nD) (i : grid0.Coords) (a2 : Memref sig .tc .vmem S1x9x128x128 .f32) (h2 : a2.IsWhole) (a3 : Memref sig .tc .vmem S1x9x5x128x128 .f32) (h3 : a3.IsWhole) (a4 : Memref sig .tc .vmem S1x9x4x128x128 .f32) (h4 : a4.IsWhole) (a5 : Memref sig .tc .vmem S1x8x128 .f32) (h5 : a5.IsWhole) (a6 : Memref sig .tc .vmem S1x8x128 .f32) (h6 : a6.IsWhole) (a7 : Memref sig .tc .vmem S1x8x128 .f32) (h7 : a7.IsWhole) (hc : ¬cond0_0 i)
    (x0 : Vec F S1x9x128x128 .f32) (x1 : Vec F S1x9x5x128x128 .f32) (x2 : Vec F S1x9x4x128x128 .f32) (xo3 xo4 xo5 : Vec F S1x8x128 .f32) :
    out0_B_5 c i a2 h2 a3 h3 a4 h4 a5 h5 a6 h6 a7 h7 hc x0 x1 x2 xo3 xo4 xo5 = k0_pay9 x1 x2 (k0_pay4 x1) xo5 := by
  unfold out0_B_5
  rw [View.read_writes_eq_canon _ _ _ (cover0_B_5 c i a2 h2 a3 h3 a4 h4 a5 h5 a6 h6 a7 h7 hc x0 x1 x2 xo3 xo4 xo5)]
  unfold kernelRun0_B
  dsimp only
  sl_unfold_words
  rw [View.canon_unit_zero hz3]
  simp only [View.readAt_eq_ld, h2.read_unread, h3.read_unread, h4.read_unread, h7.read_unread,
    View.ld_unit_zero (S := S1x9x128x128) hz4, View.ld_unit_zero (S := S1x9x5x128x128) hz5,
    View.ld_unit_zero (S := S1x9x4x128x128) hz5, View.ld_unit_zero (S := S1x8x128) hz3]

/-! ## At the first point of a core's row range: the zero block just stored, plus this point's partial sum -/

theorem out_A_3 (c : Dev nD) (i : grid0.Coords) (a2 : Memref sig .tc .vmem S1x9x128x128 .f32) (h2 : a2.IsWhole) (a3 : Memref sig .tc .vmem S1x9x5x128x128 .f32) (h3 : a3.IsWhole) (a4 : Memref sig .tc .vmem S1x9x4x128x128 .f32) (h4 : a4.IsWhole) (a5 : Memref sig .tc .vmem S1x8x128 .f32) (h5 : a5.IsWhole) (a6 : Memref sig .tc .vmem S1x8x128 .f32) (h6 : a6.IsWhole) (a7 : Memref sig .tc .vmem S1x8x128 .f32) (h7 : a7.IsWhole) (hc : cond0_0 i)
    (x0 : Vec F S1x9x128x128 .f32) (x1 : Vec F S1x9x5x128x128 .f32) (x2 : Vec F S1x9x4x128x128 .f32) :
    out0_A_3 c i a2 h2 a3 h3 a4 h4 a5 h5 a6 h6 a7 h7 hc x0 x1 x2 = k0_pay7 (k0_pay5 x0 x1) (k0_pay1 (F := F)) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread,
    View.ld_unit_zero (S := S1x9x128x128) hz4, View.ld_unit_zero (S := S1x9x5x128x128) hz5,
    View.ld_unit_zero (S := S1x9x4x128x128) hz5]

theorem out_A_4 (c : Dev nD) (i : grid0.Coords) (a2 : Memref sig .tc .vmem S1x9x128x128 .f32) (h2 : a2.IsWhole) (a3 : Memref sig .tc .vmem S1x9x5x128x128 .f32) (h3 : a3.IsWhole) (a4 : Memref sig .tc .vmem S1x9x4x128x128 .f32) (h4 : a4.IsWhole) (a5 : Memref sig .tc .vmem S1x8x128 .f32) (h5 : a5.IsWhole) (a6 : Memref sig .tc .vmem S1x8x128 .f32) (h6 : a6.IsWhole) (a7 : Memref sig .tc .vmem S1x8x128 .f32) (h7 : a7.IsWhole) (hc : cond0_0 i)
    (x0 : Vec F S1x9x128x128 .f32) (x1 : Vec F S1x9x5x128x128 .f32) (x2 : Vec F S1x9x4x128x128 .f32) :
    out0_A_4 c i a2 h2 a3 h3 a4 h4 a5 h5 a6 h6 a7 h7 hc x0 x1 x2 = k0_pay8 (k0_pay6 x0 x1) (k0_pay2 (F := F)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread,
    View.ld_unit_zero (S := S1x9x128x128) hz4, View.ld_unit_zero (S := S1x9x5x128x128) hz5,
    View.ld_unit_zero (S := S1x9x4x128x128) hz5]

theorem out_A_5 (c : Dev nD) (i : grid0.Coords) (a2 : Memref sig .tc .vmem S1x9x128x128 .f32) (h2 : a2.IsWhole) (a3 : Memref sig .tc .vmem S1x9x5x128x128 .f32) (h3 : a3.IsWhole) (a4 : Memref sig .tc .vmem S1x9x4x128x128 .f32) (h4 : a4.IsWhole) (a5 : Memref sig .tc .vmem S1x8x128 .f32) (h5 : a5.IsWhole) (a6 : Memref sig .tc .vmem S1x8x128 .f32) (h6 : a6.IsWhole) (a7 : Memref sig .tc .vmem S1x8x128 .f32) (h7 : a7.IsWhole) (hc : cond0_0 i)
    (x0 : Vec F S1x9x128x128 .f32) (x1 : Vec F S1x9x5x128x128 .f32) (x2 : Vec F S1x9x4x128x128 .f32) :
    out0_A_5 c i a2 h2 a3 h3 a4 h4 a5 h5 a6 h6 a7 h7 hc x0 x1 x2 = k0_pay9 x1 x2 (k0_pay4 x1) (k0_pay3 (F := F)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread,
    View.ld_unit_zero (S := S1x9x128x128) hz4, View.ld_unit_zero (S := S1x9x5x128x128) hz5,
    View.ld_unit_zero (S := S1x9x4x128x128) hz5]

end Cert.KernelIdeal.Pieces

end
-- ==== Proof.LibFiberSums.lean ====
/-
  Sums of extended reals over index fibres.

  A float `vector.multi_reduction <add>` read at the exact instance is, at each reduced index, the sum of the
  source over the indices that drop to it.  Collected here, for any shapes: summing the reduced vector over all
  its indices gives the total of the source (the fibres partition the source); into an index type with at most
  one element the reduction IS the total of the source; a reshape out of an index type with at most one element
  reads the one value there is; and a sum over such an index type is its one term.
-/
import Idealize.ShloMosaic.PureOps.Ideal.Laws

noncomputable section

open Idealize.ShloMosaic

namespace FiberSums

variable {φ : FTy}

/-- The reduction at a reduced index: the sum of the source over that index's fibre. -/
theorem multiReduction_add_apply {s t : Shape} {axes : List (Fin s.rank)} (src : FVec Ideal s φ) (acc : BitVec φ.bits)
    (h : s.Reduces axes t) (hφ : FKind.Formats φ) (hacc : acc = FKind.add.neutral φ hφ) (j : t.Idx) :
    multiReduction .add axes t src acc h hφ hacc j = ∑ i ∈ Finset.univ.filter (fun i => h.drop i = j), src i := rfl

/-- The fibres of the reduced indices partition the source: the reduced vector's total is the source's. -/
theorem sum_multiReduction_add {s t : Shape} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i := by
  simp only [multiReduction_add_apply]
  exact Finset.sum_fiberwise Finset.univ h.drop src

/-- Into an index type with at most one element, the one fibre is everything. -/
theorem multiReduction_add_of_subsingleton {s t : Shape} {axes : List (Fin s.rank)} [Subsingleton t.Idx]
    (src : FVec Ideal s φ) (acc : BitVec φ.bits) (h : s.Reduces axes t) (hφ : FKind.Formats φ)
    (hacc : acc = FKind.add.neutral φ hφ) (j : t.Idx) :
    multiReduction .add axes t src acc h hφ hacc j = ∑ i : s.Idx, src i := by
  rw [multiReduction_add_apply, Finset.filter_true_of_mem fun i _ => Subsingleton.elim _ _]

/-- A reshape of a vector with at most one element reads that element, whatever the index. -/
theorem shapeCast_of_subsingleton {s t : Shape} {α : Type} [Subsingleton s.Idx] (x : s.Idx → α) (h : s.ShapeCasts t)
    (j : t.Idx) (i : s.Idx) : shapeCast t x h j = x i :=
  congrArg x (Subsingleton.elim _ _)

/-- A sum over an index type with at most one element is its one term. -/
theorem sum_of_subsingleton {s : Shape} [Subsingleton s.Idx] (x : s.Idx → EReal) (i : s.Idx) : ∑ k : s.Idx, x k = x i :=
  Fintype.sum_subsingleton x i

/-- Index types all of whose axes have size one have at most one element. -/
instance subsingleton_idx1 : Subsingleton (⟨1, ![1]⟩ : Shape).Idx :=
  ⟨fun a b => funext fun d => by match d with | ⟨0, _⟩ => exact Subsingleton.elim (α := Fin 1) _ _⟩
instance subsingleton_idx11 : Subsingleton (⟨2, ![1, 1]⟩ : Shape).Idx :=
  ⟨fun a b => funext fun d => by
    match d with
    | ⟨0, _⟩ => exact Subsingleton.elim (α := Fin 1) _ _
    | ⟨1, _⟩ => exact Subsingleton.elim (α := Fin 1) _ _⟩
instance subsingleton_idx0 : Subsingleton (⟨0, ![]⟩ : Shape).Idx := ⟨fun a b => funext fun d => d.elim0⟩

end FiberSums

end
-- ==== Proof.KernelValue.lean ====
/-
  The body's three updates, read at the exact instance.

  At a grid point the body computes three numbers and adds each, splat over a 1 x 8 x 128 block, to the block
  the output held.  Each number is a total: the body sums an elementwise vector over the block's lanes, then its
  rows, then its anchors, then two axes of extent one, and takes the one element left.  Over the extended reals
  that chain of one-axis sums is the sum over ALL indices of the elementwise vector (the fibres of each reduction
  partition its source; index types of extent one have one element).  The three elementwise vectors are
    `noobjVec`:  (1 - m) * (0 - max (log1p (0 - p)) (-100))      — confidence loss where there is no object,
    `objVec`  :  m * (0 - max (log p) (-100))                    — confidence loss where there is one (the body's `k0_pay6`),
    `coorVec` :  m * (sum over the 4 coordinates of (loc - target)^2),
  with p the predicted probability, m the mask (channel 0 of the targets), all of one batch row.
-/
import proofs.«161217_j83408264888736_1_alg».proof.Proof.KernelPieces
import proofs.«161217_j83408264888736_1_alg».proof.Proof.LibFiberSums
import Idealize.ShloMosaic.Lib.ValueIdx
import Idealize.ShloMosaic.Lib.Pipeline.Value

set_option maxRecDepth 16384

noncomputable section

open Idealize.ShloMosaic Idealize.ShloMosaic.TcCoe Idealize.SL.Sem

namespace Cert.KernelIdeal.Acc

open Cert.KernelIdeal Cert.KernelIdeal.Gen FiberSums ValueIdx

/-- The no-object confidence term of one batch row, element by element. -/
def noobjVec (x0 : Vec Ideal S1x9x128x128 .f32) (x1 : Vec Ideal S1x9x5x128x128 .f32) : FVec Ideal S1x9x128x128 .f32 :=
  mulf (subf (broadcast S1x9x128x128 (Scalar.ofBits (F := Ideal) .f32 0x3F800000#32)) (k0_pay4 x1))
    (subf (broadcast S1x9x128x128 (Scalar.ofBits (F := Ideal) .f32 0x00000000#32))
      (maximumf (log1p (subf (broadcast S1x9x128x128 (Scalar.ofBits (F := Ideal) .f32 0x00000000#32)) x0))
        (broadcast S1x9x128x128 (Scalar.ofBits (F := Ideal) .f32 0xC2C80000#32))))

/-- The coordinate term of one batch row, element by element: the mask times the squared distance summed over the
    four coordinate channels. -/
def coorVec (x1 : Vec Ideal S1x9x5x128x128 .f32) (x2 : Vec Ideal S1x9x4x128x128 .f32) (v7 : FVec Ideal S1x9x128x128 .f32) :
    FVec Ideal S1x9x128x128 .f32 :=
  mulf v7 (multiReduction .add [2] S1x9x128x128
    (mulf (subf x2 (extractStridedSlice S1x9x4x128x128 ![0, 0, 1, 0, 0] x1 Gen.slices_S1x9x5x128x128_o0_0_1_0_0_S1x9x4x128x128))
      (subf x2 (extractStridedSlice S1x9x4x128x128 ![0, 0, 1, 0, 0] x1 Gen.slices_S1x9x5x128x128_o0_0_1_0_0_S1x9x4x128x128)))
    0x00000000#32 Gen.reduces_S1x9x4x128x128_S1x9x128x128 (.inl rfl) rfl)

/-- The body's chain of one-axis sums down to one element is the total over the block. -/
theorem chain_total (v : FVec Ideal S1x9x128x128 .f32) :
    extractAt ![0, 0] (shapeCast S1x1 (multiReduction .add [1] S1 (shapeCast S1x1 (multiReduction .add [1] S1
      (multiReduction .add [2] S1x9 (multiReduction .add [3] S1x9x128 v 0x00000000#32 Gen.reduces_S1x9x128x128_S1x9x128 (.inl rfl) rfl)
        0x00000000#32 Gen.reduces_S1x9x128_S1x9 (.inl rfl) rfl) 0x00000000#32 Gen.reduces_S1x9_S1 (.inl rfl) rfl)
      Gen.shapeCasts_S1_S1x1) 0x00000000#32 Gen.reduces_S1x1_S1 (.inl rfl) rfl) Gen.shapeCasts_S1_S1x1) Gen.inpos_S1x1_p0_0
      = ∑ i : S1x9x128x128.Idx, v i := by
  unfold extractAt
  refine (shapeCast_of_subsingleton (s := S1) _ _ _ (ix1 (0 : Fin 1))).trans ?_
  refine (multiReduction_add_of_subsingleton (s := S1x1) (t := S1) _ _ _ _ _ _).trans ?_
  refine (sum_of_subsingleton (s := S1x1) _ (ix2 (0 : Fin 1) (0 : Fin 1))).trans ?_
  refine (shapeCast_of_subsingleton (s := S1) _ _ _ (ix1 (0 : Fin 1))).trans ?_
  refine (multiReduction_add_of_subsingleton (s := S1x9) (t := S1) _ _ _ _ _ _).trans ?_
  refine (sum_multiReduction_add _ _ _ _ _).trans ?_
  exact sum_multiReduction_add _ _ _ _ _

/-- The first output's update: the block it held plus the given number everywhere. -/
theorem pay7_eq (s : Ideal .f32) (xo : Vec Ideal S1x8x128 .f32) : k0_pay7 (F := Ideal) s xo = fun y => xo y + s := by
  unfold k0_pay7
  rw [shapeCast_self]
  rfl

/-- The number the first output adds: the total of the no-object term. -/
theorem pay5_eq (x0 : Vec Ideal S1x9x128x128 .f32) (x1 : Vec Ideal S1x9x5x128x128 .f32) :
    k0_pay5 (F := Ideal) x0 x1 = ∑ i : S1x9x128x128.Idx, noobjVec x0 x1 i :=
  chain_total (noobjVec x0 x1)

/-- The second output's update: the block it held plus the total of the object term. -/
theorem pay8_eq (v30 : FVec Ideal S1x9x128x128 .f32) (xo : Vec Ideal S1x8x128 .f32) :
    k0_pay8 (F := Ideal) v30 xo = fun y => xo y + ∑ i : S1x9x128x128.Idx, v30 i := by
  unfold k0_pay8
  rw [shapeCast_self]
  funext y
  exact congrArg (xo y + ·) (chain_total v30)

/-- The third output's update: the block it held plus the total of the coordinate term. -/
theorem pay9_eq (x1 : Vec Ideal S1x9x5x128x128 .f32) (x2 : Vec Ideal S1x9x4x128x128 .f32) (v7 : FVec Ideal S1x9x128x128 .f32)
    (xo : Vec Ideal S1x8x128 .f32) :
    k0_pay9 (F := Ideal) x1 x2 v7 xo = fun y => xo y + ∑ i : S1x9x128x128.Idx, coorVec x1 x2 v7 i := by
  unfold k0_pay9
  rw [shapeCast_self]
  funext y
  exact congrArg (xo y + ·) (chain_total (coorVec x1 x2 v7))

/-- The zero block a core's first point stores is zero everywhere. -/
theorem pay1_eq : k0_pay1 (F := Ideal) = fun _ => (0 : EReal) := by
  unfold k0_pay1; funext y; exact Ideal.ofBits_zero_f32
theorem pay2_eq : k0_pay2 (F := Ideal) = fun _ => (0 : EReal) := by
  unfold k0_pay2; funext y; exact Ideal.ofBits_zero_f32
theorem pay3_eq : k0_pay3 (F := Ideal) = fun _ => (0 : EReal) := by
  unfold k0_pay3; funext y; exact Ideal.ofBits_zero_f32

end Cert.KernelIdeal.Acc

end
-- ==== Proof.PeriodSums.lean ====
/-
  A sum that restarts every 32 steps.

  `seg g n` adds `g` over the steps of `n`'s period of 32 up to `n` itself: from `n - n % 32` to `n`.
  It is `g n` at the first step of a period, grows by `g (n + 1)` inside one, and at a period's last step,
  `32 k + 31`, it is the sum of `g` over the whole period `32 k, …, 32 k + 31`.  The monoid is the extended
  reals under addition, where only commutativity, associativity and the zero are used.
-/
import Mathlib.Data.EReal.Basic
import Mathlib.Algebra.BigOperators.Intervals

noncomputable section

namespace PeriodSums

/-- The sum of `g` over `n`'s period up to `n`. -/
def seg (g : ℕ → EReal) (n : ℕ) : EReal := ∑ j ∈ Finset.range (n % 32 + 1), g (n - n % 32 + j)

theorem seg_first (g : ℕ → EReal) (n : ℕ) (h : n % 32 = 0) : seg g n = g n := by
  unfold seg
  rw [h, Finset.sum_range_one]
  simp

theorem seg_step (g : ℕ → EReal) (n : ℕ) (h : ¬(n + 1) % 32 = 0) : seg g (n + 1) = seg g n + g (n + 1) := by
  unfold seg
  have h1 : (n + 1) % 32 = n % 32 + 1 := by omega
  have h2 : n + 1 - (n % 32 + 1) = n - n % 32 := by omega
  have h3 : n - n % 32 + (n % 32 + 1) = n + 1 := by omega
  rw [h1, h2, Finset.sum_range_succ, h3]

theorem seg_last (g : ℕ → EReal) (k : ℕ) : seg g (32 * k + 31) = ∑ j ∈ Finset.range 32, g (32 * k + j) := by
  unfold seg
  have h1 : (32 * k + 31) % 32 = 31 := by omega
  rw [h1]
  have h2 : 32 * k + 31 - 31 = 32 * k := by omega
  rw [h2]

end PeriodSums

end
-- ==== Proof.KernelAcc.lean ====
/-
  What the three accumulator blocks hold after each grid point.

  The grid is 2 x 32: point t (0 ≤ t < 64) works on batch row t, and a core's row range is a period of 32 points.
  At the first point of a period each block is reset and ends as that point's partial sum, everywhere; at any
  other point it ends as what the point before left plus this point's partial sum.  So after point t each block
  holds, everywhere, the sum of the partial sums over t's period up to t (`PeriodSums.seg`) — by induction on the
  point.  The partial sums of point t: `part3`, `part4`, `part5`, the totals of the three elementwise terms over
  the blocks the three input windows show at t.
-/
import proofs.«161217_j83408264888736_1_alg».proof.Proof.KernelValue
import proofs.«161217_j83408264888736_1_alg».proof.Proof.PeriodSums

set_option maxRecDepth 16384

noncomputable section

open Idealize.ShloMosaic Idealize.ShloMosaic.TcCoe Idealize.SL.Sem

namespace Cert.KernelIdeal.Acc

open Cert.KernelIdeal Cert.KernelIdeal.Gen Cert.KernelIdeal.Pieces PeriodSums

variable (m : (ℓ : Loc nD τ sig) → Buf (Elt Ideal) ℓ)

/-- The three input windows' blocks at a point, at their literal types: one batch row of the probabilities, of the
    targets and of the predicted coordinates. -/
abbrev blk0 (c : Dev nD) (t : Fin cfg0.N) : Vec Ideal S1x9x128x128 .f32 := iblk m c 0 t
abbrev blk1 (c : Dev nD) (t : Fin cfg0.N) : Vec Ideal S1x9x5x128x128 .f32 := iblk m c 1 t
abbrev blk2 (c : Dev nD) (t : Fin cfg0.N) : Vec Ideal S1x9x4x128x128 .f32 := iblk m c 2 t

/-- Point t's three partial sums. -/
def part3 (c : Dev nD) (t : Fin cfg0.N) : EReal := ∑ i : S1x9x128x128.Idx, noobjVec (blk0 m c t) (blk1 m c t) i
def part4 (c : Dev nD) (t : Fin cfg0.N) : EReal := ∑ i : S1x9x128x128.Idx, k0_pay6 (F := Ideal) (blk0 m c t) (blk1 m c t) i
def part5 (c : Dev nD) (t : Fin cfg0.N) : EReal :=
  ∑ i : S1x9x128x128.Idx, coorVec (blk1 m c t) (blk2 m c t) (k0_pay4 (F := Ideal) (blk1 m c t)) i

/-- The same as functions of a natural number (zero past the grid), for the arithmetic of periods. -/
def g3 (c : Dev nD) (n : ℕ) : EReal := if h : n < cfg0.N then part3 m c ⟨n, h⟩ else 0
def g4 (c : Dev nD) (n : ℕ) : EReal := if h : n < cfg0.N then part4 m c ⟨n, h⟩ else 0
def g5 (c : Dev nD) (n : ℕ) : EReal := if h : n < cfg0.N then part5 m c ⟨n, h⟩ else 0

/-- At the first point of a period: each block ends as this point's partial sum. -/
theorem outs_first (c : Dev nD) (t : Fin cfg0.N) (h0 : t.val % 32 = 0) :
    outsAt0 m c t.val t.isLt = ((fun _ => part3 m c t), (fun _ => part4 m c t), (fun _ => part5 m c t)) := by
  rw [outsAt0_A m c t h0]
  rw [out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blk0 m c t) (blk1 m c t) (blk2 m c t),
    out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blk0 m c t) (blk1 m c t) (blk2 m c t),
    out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (blk0 m c t) (blk1 m c t) (blk2 m c t)]
  rw [pay7_eq, pay5_eq, pay1_eq, pay8_eq, pay2_eq, pay9_eq, pay3_eq]
  simp only [zero_add]
  rfl

/-- At any other point: each block ends as what the point before left plus this point's partial sum. -/
theorem outs_next (c : Dev nD) (t : Fin cfg0.N) (h0 : ¬t.val % 32 = 0) :
    outsAt0 m c t.val t.isLt
      = ((fun y => (outsAt0 m c (t.val - 1) (Nat.lt_of_le_of_lt (Nat.sub_le _ _) t.isLt)).1 y + part3 m c t),
         (fun y => (outsAt0 m c (t.val - 1) (Nat.lt_of_le_of_lt (Nat.sub_le _ _) t.isLt)).2.1 y + part4 m c t),
         (fun y => (outsAt0 m c (t.val - 1) (Nat.lt_of_le_of_lt (Nat.sub_le _ _) t.isLt)).2.2 y + part5 m c t)) := by
  rw [outsAt0_B m c t h0]
  rw [out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blk0 m c t) (blk1 m c t) (blk2 m c t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blk0 m c t) (blk1 m c t) (blk2 m c t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (blk0 m c t) (blk1 m c t) (blk2 m c t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2]
  rw [pay7_eq, pay5_eq, pay8_eq, pay9_eq]
  rfl

theorem g3_of_lt (c : Dev nD) (n : ℕ) (h : n < cfg0.N) : g3 m c n = part3 m c ⟨n, h⟩ := dif_pos h
theorem g4_of_lt (c : Dev nD) (n : ℕ) (h : n < cfg0.N) : g4 m c n = part4 m c ⟨n, h⟩ := dif_pos h
theorem g5_of_lt (c : Dev nD) (n : ℕ) (h : n < cfg0.N) : g5 m c n = part5 m c ⟨n, h⟩ := dif_pos h

/-- After point n each block holds, everywhere, the sum of the partial sums over n's period up to n. -/
theorem outsAt_eq (c : Dev nD) : ∀ (n : ℕ) (h : n < cfg0.N),
    outsAt0 m c n h = ((fun _ => seg (g3 m c) n), (fun _ => seg (g4 m c) n), (fun _ => seg (g5 m c) n))
  | 0, h => by
    rw [outs_first m c ⟨0, h⟩ rfl, seg_first _ 0 rfl, seg_first _ 0 rfl, seg_first _ 0 rfl,
      g3_of_lt m c 0 h, g4_of_lt m c 0 h, g5_of_lt m c 0 h]
  | n + 1, h => by
    by_cases h0 : (n + 1) % 32 = 0
    · rw [outs_first m c ⟨n + 1, h⟩ h0, seg_first _ _ h0, seg_first _ _ h0, seg_first _ _ h0,
        g3_of_lt m c _ h, g4_of_lt m c _ h, g5_of_lt m c _ h]
    · rw [outs_next m c ⟨n + 1, h⟩ h0, seg_step _ _ h0, seg_step _ _ h0, seg_step _ _ h0,
        g3_of_lt m c _ h, g4_of_lt m c _ h, g5_of_lt m c _ h]
      show ((fun y => (outsAt0 m c n _).1 y + _), (fun y => (outsAt0 m c n _).2.1 y + _), (fun y => (outsAt0 m c n _).2.2 y + _)) = _
      rw [outsAt_eq c n]

end Cert.KernelIdeal.Acc

end
-- ==== Proof.KernelFinal.lean ====
/-
  The three result arrays after the region.

  Each output array is 2 x 8 x 128: block k (one per core) is written back once, after the last point of core k's
  row range, and the blocks of the two cores tile the array.  What is written is what the accumulator block held
  then: everywhere the sum of the partial sums over core k's 32 rows.  So the array ends holding, at every index
  (k, a, b), core k's total.
-/
import proofs.«161217_j83408264888736_1_alg».proof.Proof.KernelAcc
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen PeriodSums

variable (m : (ℓ : Loc nD τ sig) → Buf (Elt Ideal) ℓ)

/-! ## Output one (window 3) -/

/-- The sum of output one's partial sums over core k's whole row range. -/
def tot3 (c : Dev nD) (k : ℕ) : EReal := ∑ j ∈ Finset.range 32, g3 m c (32 * k + j)

/-- What the array ends holding: block k, everywhere, the total over core k's rows. -/
abbrev G3 (c : Dev nD) : S2x8x128.Idx → Elt Ideal .f32 := fun i => tot3 m c (i 0).val

/-- The window's block index at a point: the point's core on the leading axis, zero on the others. -/
theorem idx3 : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- A write-back happens at the last point of a core's row range and writes that core's total everywhere. -/
theorem flushed_eq3 (c : Dev nD) (t : Fin cfg0.N) (hf : (cfg0.win 3).flush t = true) :
    (dats m 0 c).flushed 3 t = ((cfg0.win 3).blk t).view.read (Elt Ideal) (G3 m c) := by
  have h31 : t.val % 32 = 31 := (flush0_3 t).mp hf
  show (cfg0.win 3).cut (grid0.coords t) ((dats m 0 c).after 3 t) = _
  rw [after0_3, outsAt_eq m c t.val t.isLt]
  obtain ⟨e0, e1, e2⟩ := idx3 t
  funext j
  show seg (g3 m c) t.val = tot3 m c ((((cfg0.win 3).blk t).view.emb j) 0).val
  have hk : ((((cfg0.win 3).blk t).view.emb j) 0).val = t.val / 32 := by
    show win0_3.index t (0 : Fin 3) * 1 + 1 * (j 0).val = _
    have hj : (j 0).val < 1 := (j 0).isLt
    omega
  rw [hk]
  unfold tot3
  have ht : t.val = 32 * (t.val / 32) + 31 := by omega
  conv_lhs => rw [ht]
  exact seg_last _ _

/-- An index of the array is in point t's block iff each coordinate is in the block's range on its axis. -/
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_0).slice (win0_3.rect t)).set ↔ _
  rw [View.set_slice_whole, Rect.mem_set_unit]
  exact Iff.rfl

/-- Every index of the array lies in the block written back at the last point of its core's row range. -/
theorem cover3 (i : S2x8x128.Idx) : ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by omega
  refine ⟨⟨32 * (i 0).val + 31, hlt⟩, (flush0_3 _).mpr (by show (32 * (i 0).val + 31) % 32 = 31; omega), ?_⟩
  obtain ⟨e0, e1, e2⟩ := idx3 ⟨32 * (i 0).val + 31, hlt⟩
  have e0' : win0_3.index ⟨32 * (i 0).val + 31, hlt⟩ (0 : Fin 3) = (i 0).val := by rw [e0]; show (32 * (i 0).val + 31) / 32 = _; omega
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 8 ≤ (i 1).val ∧ (i 1).val < win0_3.index _ (1 : Fin 3) * 8 + 8; omega
  | ⟨2, _⟩ => show win0_3.index _ (2 : Fin 3) * 128 ≤ (i 2).val ∧ (i 2).val < win0_3.index _ (2 : Fin 3) * 128 + 128; omega

/-- The array after the run. -/
theorem final3 (c : Dev nD) : (dats m 0 c).arrAt 3 cfg0.N = G3 m c :=
  (dats m 0 c).arrAt_eq_of_cover 3 (G3 m c) (flushed_eq3 m c) (cover3)

/-! ## Output two (window 4) -/

/-- The sum of output two's partial sums over core k's whole row range. -/
def tot4 (c : Dev nD) (k : ℕ) : EReal := ∑ j ∈ Finset.range 32, g4 m c (32 * k + j)

/-- What the array ends holding: block k, everywhere, the total over core k's rows. -/
abbrev G4 (c : Dev nD) : S2x8x128.Idx → Elt Ideal .f32 := fun i => tot4 m c (i 0).val

/-- The window's block index at a point: the point's core on the leading axis, zero on the others. -/
theorem idx4 : ∀ t : Fin cfg0.N, win0_4.index t (0 : Fin 3) = t.val / 32 ∧ win0_4.index t (1 : Fin 3) = 0
    ∧ win0_4.index t (2 : Fin 3) = 0 :=
  (by decide +kernel : ∀ t : Fin grid0.N, _)

/-- A write-back happens at the last point of a core's row range and writes that core's total everywhere. -/
theorem flushed_eq4 (c : Dev nD) (t : Fin cfg0.N) (hf : (cfg0.win 4).flush t = true) :
    (dats m 0 c).flushed 4 t = ((cfg0.win 4).blk t).view.read (Elt Ideal) (G4 m c) := by
  have h31 : t.val % 32 = 31 := (flush0_4 t).mp hf
  show (cfg0.win 4).cut (grid0.coords t) ((dats m 0 c).after 4 t) = _
  rw [after0_4, outsAt_eq m c t.val t.isLt]
  obtain ⟨e0, e1, e2⟩ := idx4 t
  funext j
  show seg (g4 m c) t.val = tot4 m c ((((cfg0.win 4).blk t).view.emb j) 0).val
  have hk : ((((cfg0.win 4).blk t).view.emb j) 0).val = t.val / 32 := by
    show win0_4.index t (0 : Fin 3) * 1 + 1 * (j 0).val = _
    have hj : (j 0).val < 1 := (j 0).isLt
    omega
  rw [hk]
  unfold tot4
  have ht : t.val = 32 * (t.val / 32) + 31 := by omega
  conv_lhs => rw [ht]
  exact seg_last _ _

/-- An index of the array is in point t's block iff each coordinate is in the block's range on its axis. -/
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0_1).slice (win0_4.rect t)).set ↔ _
  rw [View.set_slice_whole, Rect.mem_set_unit]
  exact Iff.rfl

/-- Every index of the array lies in the block written back at the last point of its core's row range. -/
theorem cover4 (i : S2x8x128.Idx) : ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by omega
  refine ⟨⟨32 * (i 0).val + 31, hlt⟩, (flush0_4 _).mpr (by show (32 * (i 0).val + 31) % 32 = 31; omega), ?_⟩
  obtain ⟨e0, e1, e2⟩ := idx4 ⟨32 * (i 0).val + 31, hlt⟩
  have e0' : win0_4.index ⟨32 * (i 0).val + 31, hlt⟩ (0 : Fin 3) = (i 0).val := by rw [e0]; show (32 * (i 0).val + 31) / 32 = _; omega
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 8 ≤ (i 1).val ∧ (i 1).val < win0_4.index _ (1 : Fin 3) * 8 + 8; omega
  | ⟨2, _⟩ => show win0_4.index _ (2 : Fin 3) * 128 ≤ (i 2).val ∧ (i 2).val < win0_4.index _ (2 : Fin 3) * 128 + 128; omega

/-- The array after the run. -/
theorem final4 (c : Dev nD) : (dats m 0 c).arrAt 4 cfg0.N = G4 m c :=
  (dats m 0 c).arrAt_eq_of_cover 4 (G4 m c) (flushed_eq4 m c) (cover4)

/-! ## Output three (window 5) -/

/-- The sum of output three's partial sums over core k's whole row range. -/
def tot5 (c : Dev nD) (k : ℕ) : EReal := ∑ j ∈ Finset.range 32, g5 m c (32 * k + j)

/-- What the array ends holding: block k, everywhere, the total over core k's rows. -/
abbrev G5 (c : Dev nD) : S2x8x128.Idx → Elt Ideal .f32 := fun i => tot5 m c (i 0).val

/-- The window's block index at a point: the point's core on the leading axis, zero on the others. -/
theorem idx5 : ∀ t : Fin cfg0.N, win0_5.index t (0 : Fin 3) = t.val / 32 ∧ win0_5.index t (1 : Fin 3) = 0
    ∧ win0_5.index t (2 : Fin 3) = 0 :=
  (by decide +kernel : ∀ t : Fin grid0.N, _)

/-- A write-back happens at the last point of a core's row range and writes that core's total everywhere. -/
theorem flushed_eq5 (c : Dev nD) (t : Fin cfg0.N) (hf : (cfg0.win 5).flush t = true) :
    (dats m 0 c).flushed 5 t = ((cfg0.win 5).blk t).view.read (Elt Ideal) (G5 m c) := by
  have h31 : t.val % 32 = 31 := (flush0_5 t).mp hf
  show (cfg0.win 5).cut (grid0.coords t) ((dats m 0 c).after 5 t) = _
  rw [after0_5, outsAt_eq m c t.val t.isLt]
  obtain ⟨e0, e1, e2⟩ := idx5 t
  funext j
  show seg (g5 m c) t.val = tot5 m c ((((cfg0.win 5).blk t).view.emb j) 0).val
  have hk : ((((cfg0.win 5).blk t).view.emb j) 0).val = t.val / 32 := by
    show win0_5.index t (0 : Fin 3) * 1 + 1 * (j 0).val = _
    have hj : (j 0).val < 1 := (j 0).isLt
    omega
  rw [hk]
  unfold tot5
  have ht : t.val = 32 * (t.val / 32) + 31 := by omega
  conv_lhs => rw [ht]
  exact seg_last _ _

/-- An index of the array is in point t's block iff each coordinate is in the block's range on its axis. -/
theorem mem_blk5 (t : Fin cfg0.N) (i : S2x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v0_2).slice (win0_5.rect t)).set ↔ _
  rw [View.set_slice_whole, Rect.mem_set_unit]
  exact Iff.rfl

/-- Every index of the array lies in the block written back at the last point of its core's row range. -/
theorem cover5 (i : S2x8x128.Idx) : ∃ t : Fin cfg0.N, (cfg0.win 5).flush t = true ∧ i ∈ ((cfg0.win 5).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by omega
  refine ⟨⟨32 * (i 0).val + 31, hlt⟩, (flush0_5 _).mpr (by show (32 * (i 0).val + 31) % 32 = 31; omega), ?_⟩
  obtain ⟨e0, e1, e2⟩ := idx5 ⟨32 * (i 0).val + 31, hlt⟩
  have e0' : win0_5.index ⟨32 * (i 0).val + 31, hlt⟩ (0 : Fin 3) = (i 0).val := by rw [e0]; show (32 * (i 0).val + 31) / 32 = _; omega
  rw [mem_blk5]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 8 ≤ (i 1).val ∧ (i 1).val < win0_5.index _ (1 : Fin 3) * 8 + 8; omega
  | ⟨2, _⟩ => show win0_5.index _ (2 : Fin 3) * 128 ≤ (i 2).val ∧ (i 2).val < win0_5.index _ (2 : Fin 3) * 128 + 128; omega

/-- The array after the run. -/
theorem final5 (c : Dev nD) : (dats m 0 c).arrAt 5 cfg0.N = G5 m c :=
  (dats m 0 c).arrAt_eq_of_cover 5 (G5 m c) (flushed_eq5 m c) (cover5)

end Cert.KernelIdeal.Acc

end
-- ==== Proof.KernelTail.lean ====
/-
  The lines of the kernel's program after the region.

  After the region the program takes from each of the three result arrays the entries (0,0,0) and (1,0,0) (one per
  core) and adds them from zero; computes from the scores and the labels the classification term; and returns
  the classification term plus (0.5 a + 1 b + 5 d) / 64 of the three sums.  This holds from any contents the region
  leaves, so first for an arbitrary valuation, then at the one the frame run ends with, where the three arrays
  hold what the write-backs left and the arguments are as launched.
-/
import proofs.«161217_j83408264888736_1_alg».proof.Proof.Gen.KernelIdeal.Frame
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Tail

open Cert.KernelIdeal Cert.KernelIdeal.Gen

variable {F : FTy → Type} [FloatOps F]

/-- The classification term: minus the mean over the batch of the log-softmax of the scores at each row's label
    (a negative label counted from the end), times the weight one. -/
def clsTerm (x1 : (⟨S64x1000, .f32⟩ : BufTy).Contents (Elt F)) (x3 : (⟨S64, .i32⟩ : BufTy).Contents (Elt F)) :
    (⟨S_, .f32⟩ : BufTy).Contents (Elt F) :=
  (mulf (constant S_ .f32 0x3F800000#32) (Host.negf (Host.divf (Host.reduceAdd (Host.gather gather_S64x1000_S64x2_S64_n_01_n_n_01_1_11 (subf (subf x1 (broadcastInDim S64x1000 ![0, 1] bcast_S64x1_S64x1000_0_1 (broadcastInDim S64x1 ![0] bcast_S64_S64x1_0 (maximumf (broadcastInDim S64 ![] bcast_S_S64 (constant S_ .f32 0xFF800000#32)) (Host.reduce FloatOps.maximumf x1 (constant S_ .f32 0xFF800000#32) reducesTo_S64x1000_S64_d1 h_S_))))) (broadcastInDim S64x1000 ![0, 1] bcast_S64x1_S64x1000_0_1 (Host.log (broadcastInDim S64x1 ![0] bcast_S64_S64x1_0 (Host.reduceAdd (Host.exp (subf x1 (broadcastInDim S64x1000 ![0, 1] bcast_S64x1_S64x1000_0_1 (broadcastInDim S64x1 ![0] bcast_S64_S64x1_0 (maximumf (broadcastInDim S64 ![] bcast_S_S64 (constant S_ .f32 0xFF800000#32)) (Host.reduce FloatOps.maximumf x1 (constant S_ .f32 0xFF800000#32) reducesTo_S64x1000_S64_d1 h_S_)))))) (constant S_ .f32 0x00000000#32) reducesTo_S64x1000_S64_d1 h_S_))))) (concatenate S64x2 1 [⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩, ⟨S64x1, (broadcastInDim S64x1 ![0] bcast_S64_S64x1_0 (select (cmpi .slt x3 (broadcastInDim S64 ![] bcast_S_S64 (constantI S_ 32 0#32))) (addi x3 (broadcastInDim S64 ![] bcast_S_S64 (constantI S_ 32 1000#32))) x3))⟩] concatenates_S64x1_S64x1_S64x2_d1)) (constant S_ .f32 0x00000000#32) reducesTo_S64_S_d0 h_S_) (constant S_ .f32 0x42800000#32))))

/-- An output array's two per-core totals added: the entries (0,0,0) and (1,0,0), from zero. -/
def twoBlocks (A : (⟨S2x8x128, .f32⟩ : BufTy).Contents (Elt F)) : (⟨S_, .f32⟩ : BufTy).Contents (Elt F) :=
  Host.reduceAdd (shapeCast S2 (extractStridedSlice S2x1x1 ![0, 0, 0] A Gen.slices_S2x8x128_S2x1x1_0_0_0) Gen.shapeCasts_S2x1x1_S2)
    (constant S_ .f32 0x00000000#32) Gen.reducesTo_S2_S_d0 Gen.h_S_

/-- The loss: the classification term plus (0.5 a + 1 b + 5 d) / 64. -/
def combine (L a b d : (⟨S_, .f32⟩ : BufTy).Contents (Elt F)) : (⟨S_, .f32⟩ : BufTy).Contents (Elt F) :=
  addf L (Host.divf (addf (addf (mulf (constant S_ .f32 0x3F000000#32) a) (mulf (constant S_ .f32 0x3F800000#32) b))
    (mulf (constant S_ .f32 0x40A00000#32) d)) (constant S_ .f32 0x42800000#32))

set_option maxRecDepth 131072 in
set_option maxHeartbeats 8000000 in
/-- The result buffer after the lines that follow the region, from any buffer contents `W`. -/
theorem tail_after (W : Valuation τ sig (Elt F)) :
    StableHlo.after (hostOps1 ++ (hostOps1_1 ++ hostOps1_2)) W (Proc.devRef .tc main_v36)
      = combine (clsTerm (W (Proc.devRef .tc main_arg1)) (W (Proc.devRef .tc main_arg3)))
          (twoBlocks (W (Proc.devRef .tc main_v0_0))) (twoBlocks (W (Proc.devRef .tc main_v0_1))) (twoBlocks (W (Proc.devRef .tc main_v0_2))) := by
  simp only [hostOps1, hostOps1_1, hostOps1_2, List.cons_append, List.nil_append]
  after_results_simp <;> (try simp only [TRef.ofBuf, TRef.toBuf, cast_eq]) <;> rfl

variable (m : (ℓ : Loc nD τ sig) → Buf (Elt F) ℓ)

/-- The result after the frame run: the three arrays at what the write-backs left, the scores and labels as launched. -/
theorem tail_eq (c : Dev nD) :
    Pipeline.afterTail₀ cfgs (dats m) 0 (V0 m) [hostOps1, hostOps1_1, hostOps1_2] c main_v36
      = combine (clsTerm (m ((c.tc : Thread nD τ).loc main_arg1)) (m ((c.tc : Thread nD τ).loc main_arg3)))
          (twoBlocks ((dats m 0 c).arrAt 3 cfg0.N)) (twoBlocks ((dats m 0 c).arrAt 4 cfg0.N)) (twoBlocks ((dats m 0 c).arrAt 5 cfg0.N)) := by
  unfold Pipeline.afterTail₀
  rw [show ([hostOps1, hostOps1_1, hostOps1_2] : List (List (HloOp τ sig (Elt F)))).flatten = hostOps1 ++ (hostOps1_1 ++ hostOps1_2) from by
    simp only [List.flatten_cons, List.flatten_nil, List.append_nil]]
  rw [tail_after]
  have e3 : Pipeline.withArrays (cfgs 0).spec c (V0 m c) (fun w => (dats m 0 c).arrAt w (cfgs 0).N) (Proc.devRef .tc main_v0_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v0_1)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v0_2)
      = (dats m 0 c).arrAt 5 cfg0.N := Pipeline.withArrays_arr spec0 launch0.win.arr_inj c _ _ 5
  have e1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  have ea : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  rw [e3, e4, e5, e1, ea]

end Cert.KernelIdeal.Tail

end
-- ==== Proof.KernelRun.lean ====
/-
  The idealized kernel's run, with its result named.

  Every weakly fair execution of the program ends with the result buffer at the loss computed from the scores, the
  labels and the three output arrays, each of which holds its core's total at every index; the five arguments end
  as launched.  The run itself is the generated frame run; what is read off its post here is the result buffer
  (one of the buffers no window stages: it holds what the lines after the region leave) and the arguments.
-/
import proofs.«161217_j83408264888736_1_alg».proof.Proof.KernelFinal
import proofs.«161217_j83408264888736_1_alg».proof.Proof.KernelTail

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The loss the program returns on core c's device. -/
def result (c : Dev nD) : Buf (Elt Ideal) ((c.tc : Thread nD τ).loc main_v36) :=
  Tail.combine (Tail.clsTerm (m ((c.tc : Thread nD τ).loc main_arg1)) (m ((c.tc : Thread nD τ).loc main_arg3)))
    (Tail.twoBlocks (G3 m c)) (Tail.twoBlocks (G4 m c)) (Tail.twoBlocks (G5 m c))

theorem run : θ_run defs (onTc (τ := τ) (main (F := Ideal))) ⟨m, fun _ => 0, ρ⟩ (fun r => ∀ c : Dev nD,
      r.2.mem ((c.tc : Thread nD τ).loc main_v36) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v36 (Pipeline.mem_restRefs_of main_v36 (by decide) (by decide))).trans
        ((Tail.tail_eq m c).trans (by rw [final3, final4, final5]; rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c)))⟩)
    (run_main m ρ)

end Cert.KernelIdeal.Acc

end
-- ==== Proof.KernelBlocks.lean ====
/-
  The input blocks at a grid point are one batch row of their arrays, and the three elementwise terms read at an
  index are scalar functions of array entries.

  Point t's blocks of the probabilities (64 x 9 x 128 x 128), of the targets (64 x 9 x 5 x 128 x 128) and of the
  predicted coordinates (64 x 9 x 4 x 128 x 128) are row t of each array: every window's block index is
  (t, 0, …, 0) with blocks of extent one on the leading axis.  The mask the body slices out of the targets block
  is channel 0.  With these, at index (anchor, h, w) of row t:
    no-object term  = (1 - m) * (0 - max (log1p (0 - p)) (-100)),
    object term     = m * (0 - max (log p) (-100)),
    coordinate term = m * sum over the 4 channels k of (loc_k - target_{k+1})^2,
  p, m, loc, target the entries of the three arrays at row t.
-/
import proofs.«161217_j83408264888736_1_alg».proof.Proof.KernelAcc
import Idealize.ShloMosaic.PureOps.Ideal.Laws

set_option maxRecDepth 16384

noncomputable section

open Idealize.ShloMosaic Idealize.ShloMosaic.TcCoe Idealize.SL.Sem

namespace Cert.KernelIdeal.Acc

open Cert.KernelIdeal Cert.KernelIdeal.Gen

variable (m : (ℓ : Loc nD τ sig) → Buf (Elt Ideal) ℓ)

/-! ## The scalar forms of the three terms -/

def noobjS (p g : EReal) : EReal :=
  (Ideal.ofBits .f32 0x3F800000#32 - g)
    * (Ideal.ofBits .f32 0x00000000#32 - max (Ideal.log1p (Ideal.ofBits .f32 0x00000000#32 - p)) (Ideal.ofBits .f32 0xC2C80000#32))
def objS (p g : EReal) : EReal :=
  g * (Ideal.ofBits .f32 0x00000000#32 - max (Ideal.log p) (Ideal.ofBits .f32 0xC2C80000#32))
def coorS (g : EReal) (l q : Fin 4 → EReal) : EReal := g * ∑ k : Fin 4, (l k - q k) * (l k - q k)

/-! ## Row b of each array, at a block's index -/

def row4 (b : Fin 64) (y : S1x9x128x128.Idx) : S64x9x128x128.Idx := fun a => match a with
  | ⟨0, _⟩ => b
  | ⟨1, _⟩ => ⟨(y 1).val, (y 1).isLt⟩
  | ⟨2, _⟩ => ⟨(y 2).val, (y 2).isLt⟩
  | ⟨3, _⟩ => ⟨(y 3).val, (y 3).isLt⟩
def row5g (b : Fin 64) (z : S1x9x5x128x128.Idx) : S64x9x5x128x128.Idx := fun a => match a with
  | ⟨0, _⟩ => b
  | ⟨1, _⟩ => ⟨(z 1).val, (z 1).isLt⟩
  | ⟨2, _⟩ => ⟨(z 2).val, (z 2).isLt⟩
  | ⟨3, _⟩ => ⟨(z 3).val, (z 3).isLt⟩
  | ⟨4, _⟩ => ⟨(z 4).val, (z 4).isLt⟩
def row5l (b : Fin 64) (z : S1x9x4x128x128.Idx) : S64x9x4x128x128.Idx := fun a => match a with
  | ⟨0, _⟩ => b
  | ⟨1, _⟩ => ⟨(z 1).val, (z 1).isLt⟩
  | ⟨2, _⟩ => ⟨(z 2).val, (z 2).isLt⟩
  | ⟨3, _⟩ => ⟨(z 3).val, (z 3).isLt⟩
  | ⟨4, _⟩ => ⟨(z 4).val, (z 4).isLt⟩

/-- The batch row point t works on. -/
def rowOf (t : Fin cfg0.N) : Fin 64 := ⟨t.val, lt_of_lt_of_eq t.isLt (show cfg0.N = 64 from N_0)⟩

/-- Channel k of the targets (0 the mask, 1..4 the coordinates) and of the predicted coordinates, in a block. -/
def gIdx (y : S1x9x128x128.Idx) (k : Fin 5) : S1x9x5x128x128.Idx := fun a => match a with
  | ⟨0, _⟩ => ⟨(y 0).val, (y 0).isLt⟩
  | ⟨1, _⟩ => ⟨(y 1).val, (y 1).isLt⟩
  | ⟨2, _⟩ => k
  | ⟨3, _⟩ => ⟨(y 2).val, (y 2).isLt⟩
  | ⟨4, _⟩ => ⟨(y 3).val, (y 3).isLt⟩
def lIdx (y : S1x9x128x128.Idx) (k : Fin 4) : S1x9x4x128x128.Idx := fun a => match a with
  | ⟨0, _⟩ => ⟨(y 0).val, (y 0).isLt⟩
  | ⟨1, _⟩ => ⟨(y 1).val, (y 1).isLt⟩
  | ⟨2, _⟩ => k
  | ⟨3, _⟩ => ⟨(y 2).val, (y 2).isLt⟩
  | ⟨4, _⟩ => ⟨(y 3).val, (y 3).isLt⟩

/-! ## The windows' block indices, decided over the grid -/

theorem idxIn0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idxIn1 : ∀ t : Fin cfg0.N, win0_1.index t (0 : Fin 5) = t.val ∧ win0_1.index t (1 : Fin 5) = 0
    ∧ win0_1.index t (2 : Fin 5) = 0 ∧ win0_1.index t (3 : Fin 5) = 0 ∧ win0_1.index t (4 : Fin 5) = 0 :=
  (by decide +kernel : ∀ t : Fin grid0.N, _)
theorem idxIn2 : ∀ t : Fin cfg0.N, win0_2.index t (0 : Fin 5) = t.val ∧ win0_2.index t (1 : Fin 5) = 0
    ∧ win0_2.index t (2 : Fin 5) = 0 ∧ win0_2.index t (3 : Fin 5) = 0 ∧ win0_2.index t (4 : Fin 5) = 0 :=
  (by decide +kernel : ∀ t : Fin grid0.N, _)

/-! ## The blocks are rows -/

theorem blk0_apply (c : Dev nD) (t : Fin cfg0.N) (y : S1x9x128x128.Idx) :
    blk0 m c t y = m ((c.tc : Thread nD τ).loc main_arg0) (row4 (rowOf t) y) := by
  obtain ⟨e0, e1, e2, e3⟩ := idxIn0 t
  show V m c main_arg0 (((cfg0.win 0).blk t).view.emb y) = _
  refine (congrFun (V_main_arg0 m c) _).trans (congrArg _ (funext fun a => Fin.ext ?_))
  have h0 : (y 0).val < 1 := (y 0).isLt
  match a with
  | ⟨0, _⟩ => show win0_0.index t (0 : Fin 4) * 1 + 1 * (y 0).val = t.val; omega
  | ⟨1, _⟩ => show win0_0.index t (1 : Fin 4) * 9 + 1 * (y 1).val = (y 1).val; omega
  | ⟨2, _⟩ => show win0_0.index t (2 : Fin 4) * 128 + 1 * (y 2).val = (y 2).val; omega
  | ⟨3, _⟩ => show win0_0.index t (3 : Fin 4) * 128 + 1 * (y 3).val = (y 3).val; omega

theorem blk1_apply (c : Dev nD) (t : Fin cfg0.N) (z : S1x9x5x128x128.Idx) :
    blk1 m c t z = m ((c.tc : Thread nD τ).loc main_arg4) (row5g (rowOf t) z) := by
  obtain ⟨e0, e1, e2, e3, e4⟩ := idxIn1 t
  show V m c main_arg4 (((cfg0.win 1).blk t).view.emb z) = _
  refine (congrFun (V_main_arg4 m c) _).trans (congrArg _ (funext fun a => Fin.ext ?_))
  have h0 : (z 0).val < 1 := (z 0).isLt
  match a with
  | ⟨0, _⟩ => show win0_1.index t (0 : Fin 5) * 1 + 1 * (z 0).val = t.val; omega
  | ⟨1, _⟩ => show win0_1.index t (1 : Fin 5) * 9 + 1 * (z 1).val = (z 1).val; omega
  | ⟨2, _⟩ => show win0_1.index t (2 : Fin 5) * 5 + 1 * (z 2).val = (z 2).val; omega
  | ⟨3, _⟩ => show win0_1.index t (3 : Fin 5) * 128 + 1 * (z 3).val = (z 3).val; omega
  | ⟨4, _⟩ => show win0_1.index t (4 : Fin 5) * 128 + 1 * (z 4).val = (z 4).val; omega

theorem blk2_apply (c : Dev nD) (t : Fin cfg0.N) (z : S1x9x4x128x128.Idx) :
    blk2 m c t z = m ((c.tc : Thread nD τ).loc main_arg2) (row5l (rowOf t) z) := by
  obtain ⟨e0, e1, e2, e3, e4⟩ := idxIn2 t
  show V m c main_arg2 (((cfg0.win 2).blk t).view.emb z) = _
  refine (congrFun (V_main_arg2 m c) _).trans (congrArg _ (funext fun a => Fin.ext ?_))
  have h0 : (z 0).val < 1 := (z 0).isLt
  match a with
  | ⟨0, _⟩ => show win0_2.index t (0 : Fin 5) * 1 + 1 * (z 0).val = t.val; omega
  | ⟨1, _⟩ => show win0_2.index t (1 : Fin 5) * 9 + 1 * (z 1).val = (z 1).val; omega
  | ⟨2, _⟩ => show win0_2.index t (2 : Fin 5) * 4 + 1 * (z 2).val = (z 2).val; omega
  | ⟨3, _⟩ => show win0_2.index t (3 : Fin 5) * 128 + 1 * (z 3).val = (z 3).val; omega
  | ⟨4, _⟩ => show win0_2.index t (4 : Fin 5) * 128 + 1 * (z 4).val = (z 4).val; omega

/-! ## The terms at an index -/

/-- The mask the body slices and reshapes out of the targets block is channel 0. -/
theorem pay4_apply (x1 : Vec Ideal S1x9x5x128x128 .f32) (y : S1x9x128x128.Idx) :
    k0_pay4 (F := Ideal) x1 y = x1 (gIdx y 0) := by
  unfold k0_pay4
  have hy0 : (y 0).val < 1 := (y 0).isLt
  have hy1 : (y 1).val < 9 := (y 1).isLt
  have hy2 : (y 2).val < 128 := (y 2).isLt
  have hy3 : (y 3).val < 128 := (y 3).isLt
  let k : S1x9x1x128x128.Idx := fun a => match a with
    | ⟨0, _⟩ => ⟨(y 0).val, (y 0).isLt⟩
    | ⟨1, _⟩ => ⟨(y 1).val, (y 1).isLt⟩
    | ⟨2, _⟩ => ⟨0, Nat.one_pos⟩
    | ⟨3, _⟩ => ⟨(y 2).val, (y 2).isLt⟩
    | ⟨4, _⟩ => ⟨(y 3).val, (y 3).isLt⟩
  refine (shapeCast_apply _ Gen.shapeCasts_S1x9x1x128x128_S1x9x128x128 y k (by
    rewrite [Shape.rowMajor_val_five, Shape.rowMajor_val_four]
    show ((((y 0).val * 9 + (y 1).val) * 1 + 0) * 128 + (y 2).val) * 128 + (y 3).val = (((y 0).val * 9 + (y 1).val) * 128 + (y 2).val) * 128 + (y 3).val
    omega)).trans ?_
  exact extractStridedSlice_apply ![0, 0, 0, 0, 0] x1 Gen.slices_S1x9x5x128x128_o0_0_0_0_0_S1x9x1x128x128 k (gIdx y 0) (fun a => match a with
    | ⟨0, _⟩ => by show (y 0).val = 0 + (y 0).val; omega
    | ⟨1, _⟩ => by show (y 1).val = 0 + (y 1).val; omega
    | ⟨2, _⟩ => by show 0 = 0 + 0; omega
    | ⟨3, _⟩ => by show (y 2).val = 0 + (y 2).val; omega
    | ⟨4, _⟩ => by show (y 3).val = 0 + (y 3).val; omega)

theorem noobjVec_apply (x0 : Vec Ideal S1x9x128x128 .f32) (x1 : Vec Ideal S1x9x5x128x128 .f32) (y : S1x9x128x128.Idx) :
    noobjVec x0 x1 y = noobjS (x0 y) (x1 (gIdx y 0)) := by
  show noobjS (x0 y) (k0_pay4 (F := Ideal) x1 y) = _
  rw [pay4_apply]

theorem objVec_apply (x0 : Vec Ideal S1x9x128x128 .f32) (x1 : Vec Ideal S1x9x5x128x128 .f32) (y : S1x9x128x128.Idx) :
    k0_pay6 (F := Ideal) x0 x1 y = objS (x0 y) (x1 (gIdx y 0)) := by
  show objS (x0 y) (k0_pay4 (F := Ideal) x1 y) = _
  rw [pay4_apply]

theorem coorVec_apply (x1 : Vec Ideal S1x9x5x128x128 .f32) (x2 : Vec Ideal S1x9x4x128x128 .f32) (y : S1x9x128x128.Idx) :
    coorVec x1 x2 (k0_pay4 (F := Ideal) x1) y
      = coorS (x1 (gIdx y 0)) (fun k => x2 (lIdx y k)) (fun k => x1 (gIdx y ⟨1 + k.val, by have := k.isLt; omega⟩)) := by
  unfold coorVec coorS
  show k0_pay4 (F := Ideal) x1 y * _ = _
  rw [pay4_apply]
  refine congrArg (x1 (gIdx y 0) * ·) ((Ideal.multiReduction_add_single _ _ Gen.reduces_S1x9x4x128x128_S1x9x128x128 _ _ y).trans
    (Finset.sum_congr rfl fun k _ => ?_))
  have hk4 : k.val < 4 := k.isLt
  have hl : Gen.reduces_S1x9x4x128x128_S1x9x128x128.lift y k = lIdx y k :=
    funext fun a => Fin.ext (by match a with | ⟨0, _⟩ => rfl | ⟨1, _⟩ => rfl | ⟨2, _⟩ => rfl | ⟨3, _⟩ => rfl | ⟨4, _⟩ => rfl)
  rw [hl]
  have hs : extractStridedSlice S1x9x4x128x128 ![0, 0, 1, 0, 0] x1 Gen.slices_S1x9x5x128x128_o0_0_1_0_0_S1x9x4x128x128 (lIdx y k)
      = x1 (gIdx y ⟨1 + k.val, by omega⟩) :=
    extractStridedSlice_apply ![0, 0, 1, 0, 0] x1 Gen.slices_S1x9x5x128x128_o0_0_1_0_0_S1x9x4x128x128 (lIdx y k) _ (fun a => match a with
      | ⟨0, _⟩ => by show (y 0).val = 0 + (y 0).val; omega
      | ⟨1, _⟩ => by show (y 1).val = 0 + (y 1).val; omega
      | ⟨2, _⟩ => by show 1 + k.val = 1 + k.val; omega
      | ⟨3, _⟩ => by show (y 2).val = 0 + (y 2).val; omega
      | ⟨4, _⟩ => by show (y 3).val = 0 + (y 3).val; omega)
  show (x2 (lIdx y k) - extractStridedSlice S1x9x4x128x128 ![0, 0, 1, 0, 0] x1 _ (lIdx y k)) * (x2 (lIdx y k) - extractStridedSlice S1x9x4x128x128 ![0, 0, 1, 0, 0] x1 _ (lIdx y k)) = _
  rw [hs]

end Cert.KernelIdeal.Acc

end
-- ==== Proof.RefTerms.lean ====
/-
  The reference's three sums, term by term.

  The reference multiplies, over the whole 64 x 9 x 128 x 128 grid of cells, the same three elementwise terms as
  the kernel and sums each over all cells at once.  Read at a cell i = (row, anchor, h, w):
    its no-object term is (1 - m) * -(max (-100) (log1p (-p))), which is the kernel's (1 - m) * (0 - max (log1p (0 - p)) (-100)):
      0 - x = -x and max commutes on the extended reals;
    its object term likewise;
    its coordinate term is m * (0 + sum over the 4 channels of (loc - target)^2), the kernel's without the zero.
  The cells are the pairs (row b, cell y of a row), so a sum over all cells is the sum over rows of the sums over a
  row's cells.
-/
import proofs.«161217_j83408264888736_1_alg».proof.Proof.KernelBlocks
import proofs.«161217_j83408264888736_1_alg».proof.Proof.RefRead

set_option maxRecDepth 16384

noncomputable section

open Idealize.ShloMosaic Idealize.ShloMosaic.TcCoe Idealize.SL.Sem

namespace Cert.Bridge

open Cert.KernelIdeal Cert.KernelIdeal.Acc

/-! ## Cells of the whole arrays -/

/-- Channel k of the targets, and of the predicted coordinates, at cell i. -/
def gIdx64 (i : S64x9x128x128.Idx) (k : Fin 5) : S64x9x5x128x128.Idx := fun a => match a with
  | ⟨0, _⟩ => ⟨(i 0).val, (i 0).isLt⟩
  | ⟨1, _⟩ => ⟨(i 1).val, (i 1).isLt⟩
  | ⟨2, _⟩ => k
  | ⟨3, _⟩ => ⟨(i 2).val, (i 2).isLt⟩
  | ⟨4, _⟩ => ⟨(i 3).val, (i 3).isLt⟩
def lIdx64 (i : S64x9x128x128.Idx) (k : Fin 4) : S64x9x4x128x128.Idx := fun a => match a with
  | ⟨0, _⟩ => ⟨(i 0).val, (i 0).isLt⟩
  | ⟨1, _⟩ => ⟨(i 1).val, (i 1).isLt⟩
  | ⟨2, _⟩ => k
  | ⟨3, _⟩ => ⟨(i 2).val, (i 2).isLt⟩
  | ⟨4, _⟩ => ⟨(i 3).val, (i 3).isLt⟩

theorem row5g_gIdx (b : Fin 64) (y : S1x9x128x128.Idx) (k : Fin 5) : row5g b (gIdx y k) = gIdx64 (row4 b y) k :=
  funext fun a => by match a with | ⟨0, _⟩ => rfl | ⟨1, _⟩ => rfl | ⟨2, _⟩ => rfl | ⟨3, _⟩ => rfl | ⟨4, _⟩ => rfl
theorem row5l_lIdx (b : Fin 64) (y : S1x9x128x128.Idx) (k : Fin 4) : row5l b (lIdx y k) = lIdx64 (row4 b y) k :=
  funext fun a => by match a with | ⟨0, _⟩ => rfl | ⟨1, _⟩ => rfl | ⟨2, _⟩ => rfl | ⟨3, _⟩ => rfl | ⟨4, _⟩ => rfl

/-- The three terms as functions of a cell of the whole arrays. -/
def noobjAt (x0 : S64x9x128x128.Idx → EReal) (x4 : S64x9x5x128x128.Idx → EReal) (i : S64x9x128x128.Idx) : EReal :=
  noobjS (x0 i) (x4 (gIdx64 i 0))
def objAt (x0 : S64x9x128x128.Idx → EReal) (x4 : S64x9x5x128x128.Idx → EReal) (i : S64x9x128x128.Idx) : EReal :=
  objS (x0 i) (x4 (gIdx64 i 0))
def coorAt (x2 : S64x9x4x128x128.Idx → EReal) (x4 : S64x9x5x128x128.Idx → EReal) (i : S64x9x128x128.Idx) : EReal :=
  coorS (x4 (gIdx64 i 0)) (fun k => x2 (lIdx64 i k)) (fun k => x4 (gIdx64 i ⟨1 + k.val, by have := k.isLt; omega⟩))

/-! ## The reference's stages at a cell -/

/-- The mask the reference slices and reshapes out of the targets is channel 0 of the cell. -/
theorem ref_mask_idx (i : S64x9x128x128.Idx) :
    Cert.ReferenceIdeal.ReadP.idx_main_v0 (Cert.ReferenceIdeal.ReadP.idx_main_v1 i) = gIdx64 i 0 := by
  have h0 : (i 0).val < 64 := (i 0).isLt; have h1 : (i 1).val < 9 := (i 1).isLt; have h2 : (i 2).val < 128 := (i 2).isLt; have h3 : (i 3).val < 128 := (i 3).isLt
  funext a
  apply Fin.ext
  match a with
  | ⟨0, _⟩ => show ((((i 0).val * 9 + (i 1).val) * 128 + (i 2).val) * 128 + (i 3).val) / 147456 = (i 0).val; omega
  | ⟨1, _⟩ => show ((((i 0).val * 9 + (i 1).val) * 128 + (i 2).val) * 128 + (i 3).val) / 16384 % 9 = (i 1).val; omega
  | ⟨2, _⟩ => rfl
  | ⟨3, _⟩ => show ((((i 0).val * 9 + (i 1).val) * 128 + (i 2).val) * 128 + (i 3).val) / 128 % 128 = (i 2).val; omega
  | ⟨4, _⟩ => show ((((i 0).val * 9 + (i 1).val) * 128 + (i 2).val) * 128 + (i 3).val) % 128 = (i 3).val; omega

theorem ref_mask (x4 : S64x9x5x128x128.Idx → EReal) (i : S64x9x128x128.Idx) :
    Cert.ReferenceIdeal.ReadP.val_main_v1 (F := Ideal) x4 i = x4 (gIdx64 i 0) := by
  rw [Cert.ReferenceIdeal.ReadP.val_main_v1_apply, Cert.ReferenceIdeal.ReadP.val_main_v0_apply, ref_mask_idx]

theorem ref_noobj (x0 : S64x9x128x128.Idx → EReal) (x4 : S64x9x5x128x128.Idx → EReal) (i : S64x9x128x128.Idx) :
    Cert.ReferenceIdeal.ReadP.val_main_v10 (F := Ideal) x0 x4 i = noobjAt x0 x4 i := by
  rw [Cert.ReferenceIdeal.ReadP.val_main_v10_apply, Cert.ReferenceIdeal.ReadP.val_main_v8_apply,
    Cert.ReferenceIdeal.ReadP.val_main_v9_apply, Cert.ReferenceIdeal.ReadP.val_main_v7_apply,
    Cert.ReferenceIdeal.ReadP.val_main_cst_1_apply, ref_mask, Cert.ReferenceIdeal.ReadP.val_main_v6_apply,
    Cert.ReferenceIdeal.ReadP.val_main_call1_v1_apply, Cert.ReferenceIdeal.ReadP.val_main_call1_v0_apply,
    Cert.ReferenceIdeal.ReadP.val_main_cst_0_apply, Cert.ReferenceIdeal.ReadP.val_main_v5_apply,
    Cert.ReferenceIdeal.ReadP.val_main_v4_apply]
  unfold noobjAt noobjS
  simp only [Ideal.mulf_def, Ideal.subf_def, Ideal.hostNegf_def, Ideal.negf_def, Ideal.maximumf_def,
    Ideal.hostUnary_log1p_def, Ideal.ofBits_def]
  simp only [Ideal.ofBits_zero_f32, zero_sub, max_comm]

theorem ref_obj (x0 : S64x9x128x128.Idx → EReal) (x4 : S64x9x5x128x128.Idx → EReal) (i : S64x9x128x128.Idx) :
    Cert.ReferenceIdeal.ReadP.val_main_v13 (F := Ideal) x0 x4 i = objAt x0 x4 i := by
  rw [Cert.ReferenceIdeal.ReadP.val_main_v13_apply, ref_mask, Cert.ReferenceIdeal.ReadP.val_main_v12_apply,
    Cert.ReferenceIdeal.ReadP.val_main_v3_apply, Cert.ReferenceIdeal.ReadP.val_main_call0_v1_apply,
    Cert.ReferenceIdeal.ReadP.val_main_call0_v0_apply, Cert.ReferenceIdeal.ReadP.val_main_cst_apply,
    Cert.ReferenceIdeal.ReadP.val_main_v2_apply]
  unfold objAt objS
  simp only [Ideal.mulf_def, Ideal.hostNegf_def, Ideal.negf_def, Ideal.maximumf_def, Ideal.hostUnary_log_def, Ideal.ofBits_def]
  simp only [Ideal.ofBits_zero_f32, zero_sub, max_comm]

theorem ref_coor (x2 : S64x9x4x128x128.Idx → EReal) (x4 : S64x9x5x128x128.Idx → EReal) (i : S64x9x128x128.Idx) :
    Cert.ReferenceIdeal.ReadP.val_main_v19 (F := Ideal) x2 x4 i = coorAt x2 x4 i := by
  rw [Cert.ReferenceIdeal.ReadP.val_main_v19_apply, ref_mask, Cert.ReferenceIdeal.ReadP.val_main_v18_apply,
    Cert.ReferenceIdeal.ReadP.val_main_cst_4_apply]
  unfold coorAt coorS
  simp only [Ideal.mulf_def, Ideal.ofBits_def, Ideal.ofBits_zero_f32, zero_add]
  refine congrArg (x4 (gIdx64 i 0) * ·) (Finset.sum_congr rfl fun k _ => ?_)
  rw [Cert.ReferenceIdeal.ReadP.val_main_v17_apply, Cert.ReferenceIdeal.ReadP.val_main_v16_apply,
    Cert.ReferenceIdeal.ReadP.val_main_v15_apply]
  have e1 : Cert.ReferenceIdeal.ReadP.idx_main_v18 i k = lIdx64 i k :=
    funext fun a => by match a with | ⟨0, _⟩ => rfl | ⟨1, _⟩ => rfl | ⟨2, _⟩ => rfl | ⟨3, _⟩ => rfl | ⟨4, _⟩ => rfl
  have e2 : Cert.ReferenceIdeal.ReadP.idx_main_v15 (Cert.ReferenceIdeal.ReadP.idx_main_v18 i k)
      = gIdx64 i ⟨1 + k.val, by have := k.isLt; omega⟩ :=
    funext fun a => by match a with | ⟨0, _⟩ => rfl | ⟨1, _⟩ => rfl | ⟨2, _⟩ => rfl | ⟨3, _⟩ => rfl | ⟨4, _⟩ => rfl
  rw [e2, e1]
  rfl

/-! ## Cells are (row, cell of a row) -/

def rowEquiv : Fin 64 × S1x9x128x128.Idx ≃ S64x9x128x128.Idx where
  toFun p := row4 p.1 p.2
  invFun i := (⟨(i 0).val, (i 0).isLt⟩, fun a => match a with
    | ⟨0, _⟩ => ⟨0, Nat.one_pos⟩
    | ⟨1, _⟩ => ⟨(i 1).val, (i 1).isLt⟩
    | ⟨2, _⟩ => ⟨(i 2).val, (i 2).isLt⟩
    | ⟨3, _⟩ => ⟨(i 3).val, (i 3).isLt⟩)
  left_inv p := by
    refine Prod.ext rfl (funext fun a => ?_)
    match a with
    | ⟨0, _⟩ => exact Fin.ext (by have h : (p.2 0).val < 1 := (p.2 0).isLt; show 0 = (p.2 0).val; omega)
    | ⟨1, _⟩ => rfl
    | ⟨2, _⟩ => rfl
    | ⟨3, _⟩ => rfl
  right_inv i := funext fun a => by match a with | ⟨0, _⟩ => rfl | ⟨1, _⟩ => rfl | ⟨2, _⟩ => rfl | ⟨3, _⟩ => rfl

/-- A sum over all cells is the sum over the rows of the sums over a row's cells. -/
theorem sum_rows (X : S64x9x128x128.Idx → EReal) :
    ∑ i : S64x9x128x128.Idx, X i = ∑ b : Fin 64, ∑ y : S1x9x128x128.Idx, X (row4 b y) := by
  rw [← Equiv.sum_comp rowEquiv X, Fintype.sum_prod_type]
  rfl

end Cert.Bridge

end
-- ==== Proof.Bridge.lean ====
/-
  The kernel's three totals are the reference's three sums.

  For each of the three terms: the host lines after the region add the two cores' totals from zero; core k's total
  is the sum of the partial sums of its 32 rows; a row's partial sum is the sum of the term over the row's cells.
  Two periods of 32 rows are the 64 rows, and rows times cells of a row are all cells, so the kernel's number is
  zero plus the sum of the term over all cells — what the reference's one reduction over all four axes computes from
  its zero.  Only commutativity and associativity of addition on the extended reals are used; no entry need be finite.
-/
import proofs.«161217_j83408264888736_1_alg».proof.Proof.RefTerms
import proofs.«161217_j83408264888736_1_alg».proof.Proof.KernelFinal
import proofs.«161217_j83408264888736_1_alg».proof.Proof.KernelTail

set_option maxRecDepth 16384

noncomputable section

open Idealize.ShloMosaic Idealize.ShloMosaic.TcCoe Idealize.SL.Sem

namespace Cert.Bridge

open Cert.KernelIdeal Cert.KernelIdeal.Gen Cert.KernelIdeal.Acc

variable (m : (ℓ : Loc nD τ sig) → Buf (Elt Ideal) ℓ)

/-- The three float arrays the terms read, on core c's device: probabilities, predicted coordinates, targets. -/
abbrev X0 (c : Dev nD) : S64x9x128x128.Idx → EReal := m ((c.tc : Thread nD τ).loc main_arg0)
abbrev X2 (c : Dev nD) : S64x9x4x128x128.Idx → EReal := m ((c.tc : Thread nD τ).loc main_arg2)
abbrev X4 (c : Dev nD) : S64x9x5x128x128.Idx → EReal := m ((c.tc : Thread nD τ).loc main_arg4)

/-! ## A point's partial sums are row sums of the cell terms -/

theorem part3_eq (c : Dev nD) (t : Fin cfg0.N) :
    part3 m c t = ∑ y : S1x9x128x128.Idx, noobjAt (X0 m c) (X4 m c) (row4 (rowOf t) y) := by
  unfold part3
  refine Finset.sum_congr rfl fun y _ => ?_
  rw [noobjVec_apply, blk0_apply, blk1_apply, row5g_gIdx]
  rfl

theorem part4_eq (c : Dev nD) (t : Fin cfg0.N) :
    part4 m c t = ∑ y : S1x9x128x128.Idx, objAt (X0 m c) (X4 m c) (row4 (rowOf t) y) := by
  unfold part4
  refine Finset.sum_congr rfl fun y _ => ?_
  rw [objVec_apply, blk0_apply, blk1_apply, row5g_gIdx]
  rfl

theorem part5_eq (c : Dev nD) (t : Fin cfg0.N) :
    part5 m c t = ∑ y : S1x9x128x128.Idx, coorAt (X2 m c) (X4 m c) (row4 (rowOf t) y) := by
  unfold part5
  refine Finset.sum_congr rfl fun y _ => ?_
  rw [coorVec_apply]
  simp only [blk1_apply, blk2_apply, row5g_gIdx, row5l_lIdx]
  rfl

/-! ## Two periods of 32 are the grid; rows times cells are all cells -/

theorem two_periods (g : ℕ → EReal) :
    (∑ j ∈ Finset.range 32, g (32 * 0 + j)) + (∑ j ∈ Finset.range 32, g (32 * 1 + j)) = ∑ n ∈ Finset.range 64, g n := by
  rw [show (64 : ℕ) = 32 + 32 from rfl, Finset.sum_range_add]
  simp only [Nat.mul_zero, Nat.zero_add, Nat.mul_one]

theorem grid3 (c : Dev nD) : ∑ n ∈ Finset.range 64, g3 m c n = ∑ i : S64x9x128x128.Idx, noobjAt (X0 m c) (X4 m c) i := by
  rw [Finset.sum_range, sum_rows]
  refine Finset.sum_congr rfl fun b _ => ?_
  have hb : b.val < cfg0.N := by rw [show cfg0.N = 64 from N_0]; exact b.isLt
  rw [g3_of_lt m c b.val hb, part3_eq]
  rfl

theorem grid4 (c : Dev nD) : ∑ n ∈ Finset.range 64, g4 m c n = ∑ i : S64x9x128x128.Idx, objAt (X0 m c) (X4 m c) i := by
  rw [Finset.sum_range, sum_rows]
  refine Finset.sum_congr rfl fun b _ => ?_
  have hb : b.val < cfg0.N := by rw [show cfg0.N = 64 from N_0]; exact b.isLt
  rw [g4_of_lt m c b.val hb, part4_eq]
  rfl

theorem grid5 (c : Dev nD) : ∑ n ∈ Finset.range 64, g5 m c n = ∑ i : S64x9x128x128.Idx, coorAt (X2 m c) (X4 m c) i := by
  rw [Finset.sum_range, sum_rows]
  refine Finset.sum_congr rfl fun b _ => ?_
  have hb : b.val < cfg0.N := by rw [show cfg0.N = 64 from N_0]; exact b.isLt
  rw [g5_of_lt m c b.val hb, part5_eq]
  rfl

/-! ## The host lines' read of an output array: its entries (0,0,0) and (1,0,0), added from zero -/

/-- The entry (k, 0, 0) of an output array. -/
def corner (k : Fin 2) : S2x8x128.Idx := fun a => match a with
  | ⟨0, _⟩ => k
  | ⟨1, _⟩ => ⟨0, (show (0 : ℕ) < 8 by decide)⟩
  | ⟨2, _⟩ => ⟨0, (show (0 : ℕ) < 128 by decide)⟩

/-- The two indices of a length-2 vector. -/
def idx2Equiv : Fin 2 ≃ S2.Idx where
  toFun k := ValueIdx.ix1 k
  invFun i := i 0
  left_inv k := rfl
  right_inv i := (ValueIdx.eq_ix1 i).symm

theorem slice_cast_apply (A : S2x8x128.Idx → EReal) (k : Fin 2) :
    shapeCast S2 (extractStridedSlice S2x1x1 ![0, 0, 0] A Gen.slices_S2x8x128_S2x1x1_0_0_0) Gen.shapeCasts_S2x1x1_S2 (ValueIdx.ix1 k)
      = A (corner k) := by
  let k' : S2x1x1.Idx := fun a => match a with
    | ⟨0, _⟩ => k
    | ⟨1, _⟩ => ⟨0, Nat.one_pos⟩
    | ⟨2, _⟩ => ⟨0, Nat.one_pos⟩
  refine (shapeCast_apply _ Gen.shapeCasts_S2x1x1_S2 (ValueIdx.ix1 k) k' (by
    rewrite [Shape.rowMajor_val_three, Shape.rowMajor_val_one]
    show (k.val * 1 + 0) * 1 + 0 = k.val
    omega)).trans ?_
  exact extractStridedSlice_apply ![0, 0, 0] A Gen.slices_S2x8x128_S2x1x1_0_0_0 k' (corner k) (fun a => match a with
    | ⟨0, _⟩ => by show k.val = 0 + k.val; omega
    | ⟨1, _⟩ => by show 0 = 0 + 0; omega
    | ⟨2, _⟩ => by show 0 = 0 + 0; omega)

theorem twoBlocks_apply (A : S2x8x128.Idx → EReal) (j : S_.Idx) :
    Tail.twoBlocks (F := Ideal) A j = 0 + (A (corner 0) + A (corner 1)) := by
  unfold Tail.twoBlocks
  simp only [Host.reduceAdd, Ideal.hostReduceAdd_def]
  refine (Ideal.hostReduceAdd_total Gen.reducesTo_S2_S_d0 (fun b => b.elim0) _ _ j).trans ?_
  have hs : ∀ X : S2.Idx → EReal, ∑ i : S2.Idx, X i = X (ValueIdx.ix1 (0 : Fin 2)) + X (ValueIdx.ix1 (1 : Fin 2)) := fun X => by
    rw [← Equiv.sum_comp idx2Equiv X, Fin.sum_univ_two]
    rfl
  rw [hs, slice_cast_apply, slice_cast_apply]
  exact congrArg (· + _) Ideal.ofBits_zero_f32

/-- So of an output array holding core k's total everywhere, the host lines make zero plus the sum over the grid. -/
theorem twoBlocks_G3 (c : Dev nD) (j : S_.Idx) :
    Tail.twoBlocks (F := Ideal) (G3 m c) j = 0 + ∑ i : S64x9x128x128.Idx, noobjAt (X0 m c) (X4 m c) i := by
  rw [twoBlocks_apply, ← grid3, ← two_periods]
  rfl
theorem twoBlocks_G4 (c : Dev nD) (j : S_.Idx) :
    Tail.twoBlocks (F := Ideal) (G4 m c) j = 0 + ∑ i : S64x9x128x128.Idx, objAt (X0 m c) (X4 m c) i := by
  rw [twoBlocks_apply, ← grid4, ← two_periods]
  rfl
theorem twoBlocks_G5 (c : Dev nD) (j : S_.Idx) :
    Tail.twoBlocks (F := Ideal) (G5 m c) j = 0 + ∑ i : S64x9x128x128.Idx, coorAt (X2 m c) (X4 m c) i := by
  rw [twoBlocks_apply, ← grid5, ← two_periods]
  rfl

/-! ## The reference's three reductions over all cells -/

theorem ref_sum3 (c : Dev nD) (j : S_.Idx) :
    Cert.ReferenceIdeal.ReadP.val_main_v11 (F := Ideal) (X0 m c) (X4 m c) j = 0 + ∑ i : S64x9x128x128.Idx, noobjAt (X0 m c) (X4 m c) i := by
  rw [Cert.ReferenceIdeal.ReadP.val_main_v11_apply, Cert.ReferenceIdeal.ReadP.val_main_cst_2_apply]
  refine congrArg₂ (· + ·) Ideal.ofBits_zero_f32 (Finset.sum_congr rfl fun i _ => ref_noobj _ _ i)
theorem ref_sum4 (c : Dev nD) (j : S_.Idx) :
    Cert.ReferenceIdeal.ReadP.val_main_v14 (F := Ideal) (X0 m c) (X4 m c) j = 0 + ∑ i : S64x9x128x128.Idx, objAt (X0 m c) (X4 m c) i := by
  rw [Cert.ReferenceIdeal.ReadP.val_main_v14_apply, Cert.ReferenceIdeal.ReadP.val_main_cst_3_apply]
  refine congrArg₂ (· + ·) Ideal.ofBits_zero_f32 (Finset.sum_congr rfl fun i _ => ref_obj _ _ i)
theorem ref_sum5 (c : Dev nD) (j : S_.Idx) :
    Cert.ReferenceIdeal.ReadP.val_main_v20 (F := Ideal) (X2 m c) (X4 m c) j = 0 + ∑ i : S64x9x128x128.Idx, coorAt (X2 m c) (X4 m c) i := by
  rw [Cert.ReferenceIdeal.ReadP.val_main_v20_apply, Cert.ReferenceIdeal.ReadP.val_main_cst_5_apply]
  refine congrArg₂ (· + ·) Ideal.ofBits_zero_f32 (Finset.sum_congr rfl fun i _ => ref_coor _ _ i)

end Cert.Bridge

end
-- ==== Proof.lean ====
/-
  A detection loss (classification cross-entropy plus three masked sums over 64 x 9 x 128 x 128 cells) computed by a
  Pallas kernel that streams one batch row per grid point, against its jnp reference: equal over the extended reals.

  The kernel's grid is 2 x 32.  Point t reads row t of the probabilities, the targets and the predicted coordinates,
  forms three elementwise terms over the row (the confidence loss where the mask is 0, where it is 1, and the masked
  squared coordinate error summed over four channels), sums each over the row, and adds the three numbers, splat, to
  three 1 x 8 x 128 accumulator blocks that are reset at the first point of each core's 32 rows and written back after
  the last.  The host lines then add the two cores' totals of each term, form (0.5 a + b + 5 d) / 64 and add the
  classification term.  The reference forms the same three elementwise terms over all cells and sums each in one
  reduction over all four axes, then the same combination.

  The two agree because (1) cell by cell the terms are one function of the array entries — the kernel writes 0 - x
  where the reference negates, and max with its arguments the other way round —, (2) a sum over all cells is the sum
  over rows of row sums, two periods of 32 rows being the 64 rows, and adding zero changes nothing; addition on the
  extended reals is commutative and associative whatever is infinite, so the precondition is never opened; (3) the
  classification term and the final combination are the same operations in both programs.

  The frames of the kernel and of its idealization are generated; the reference's frame is its run with the result
  dropped.  The ideal pass rewrote nothing, so `preserves` is trivial.
-/
import proofs.«161217_j83408264888736_1_alg».proof.Defs
import proofs.«161217_j83408264888736_1_alg».proof.Proof.Gen.Kernel
import proofs.«161217_j83408264888736_1_alg».proof.Proof.Gen.Kernel.Frame
import proofs.«161217_j83408264888736_1_alg».proof.Proof.Gen.KernelIdeal
import proofs.«161217_j83408264888736_1_alg».proof.Proof.Gen.KernelIdeal.Frame
import proofs.«161217_j83408264888736_1_alg».proof.Proof.Gen.ReferenceIdeal
import proofs.«161217_j83408264888736_1_alg».proof.Proof.Gen.Pre_finite_inputs
import proofs.«161217_j83408264888736_1_alg».proof.Proof.RefRun
import proofs.«161217_j83408264888736_1_alg».proof.Proof.RefRead
import proofs.«161217_j83408264888736_1_alg».proof.Proof.KernelRun
import proofs.«161217_j83408264888736_1_alg».proof.Proof.Bridge
import Idealize.ShloMosaic.Adequacy
import Idealize.ShloMosaic.Init

noncomputable section

open Idealize.ShloMosaic Idealize.ShloMosaic.TcCoe Idealize.SL.Sem

namespace Cert.Proof

/-- The classification term is the same chain of operations in the two programs. -/
theorem cls_eq {F : FTy → Type} [FloatOps F] (x1 : (⟨Cert.KernelIdeal.S64x1000, .f32⟩ : BufTy).Contents (Elt F))
    (x3 : (⟨Cert.KernelIdeal.S64, .i32⟩ : BufTy).Contents (Elt F)) :
    Cert.ReferenceIdeal.ReadP.val_main_v40 (F := F) x1 x3 = Cert.KernelIdeal.Tail.clsTerm (F := F) x1 x3 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

open Cert.KernelIdeal Cert.KernelIdeal.Acc Cert.Bridge in
/-- At the exact instance both programs end at the same loss: the kernel's three totals are the reference's three sums
    and everything around them is the same operations. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2.1, (hagree c).2.2.2.2]
  refine (Cert.ReferenceIdeal.ReadP.val_main_v47_eq (F := Ideal) (X0 m c) (m ((c.tc : Thread nD τ).loc main_arg1)) (X2 m c)
    (m ((c.tc : Thread nD τ).loc main_arg3)) (X4 m c)).trans ?_
  have t3 : Tail.twoBlocks (F := Ideal) (G3 m c) = Cert.ReferenceIdeal.ReadP.val_main_v11 (F := Ideal) (X0 m c) (X4 m c) :=
    funext fun j => (twoBlocks_G3 m c j).trans (ref_sum3 m c j).symm
  have t4 : Tail.twoBlocks (F := Ideal) (G4 m c) = Cert.ReferenceIdeal.ReadP.val_main_v14 (F := Ideal) (X0 m c) (X4 m c) :=
    funext fun j => (twoBlocks_G4 m c j).trans (ref_sum4 m c j).symm
  have t5 : Tail.twoBlocks (F := Ideal) (G5 m c) = Cert.ReferenceIdeal.ReadP.val_main_v20 (F := Ideal) (X2 m c) (X4 m c) :=
    funext fun j => (twoBlocks_G5 m c j).trans (ref_sum5 m c j).symm
  show _ = Cert.KernelIdeal.Acc.result m c
  unfold Cert.KernelIdeal.Acc.result
  rw [t3, t4, t5, ← cls_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
